-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3072 : Shape := ⟨2, ![256, 3072]⟩
abbrev S3072x3072 : Shape := ⟨2, ![3072, 3072]⟩
abbrev S3072x48 : Shape := ⟨2, ![3072, 48]⟩
abbrev S32x3072 : Shape := ⟨2, ![32, 3072]⟩
abbrev S3072x32 : Shape := ⟨2, ![3072, 32]⟩
abbrev S3072 : Shape := ⟨1, ![3072]⟩
abbrev S_ : Shape := ⟨0, ![]⟩

class Facts : Prop where
  bcast_S_S256x3072 : S_.BroadcastsInDim S256x3072 (![] : Fin 0 → Fin S256x3072.rank)
  reducesTo_S256x3072_S_d0_1 : S256x3072.ReducesTo [0, 1] S_
  h_S_ : 0 < S_.numel
  bcast_S_S3072x48 : S_.BroadcastsInDim S3072x48 (![] : Fin 0 → Fin S3072x48.rank)
  reducesTo_S3072x48_S_d0_1 : S3072x48.ReducesTo [0, 1] S_
  bcast_S_S32x3072 : S_.BroadcastsInDim S32x3072 (![] : Fin 0 → Fin S32x3072.rank)
  reducesTo_S32x3072_S_d0_1 : S32x3072.ReducesTo [0, 1] S_
  bcast_S_S3072x32 : S_.BroadcastsInDim S3072x32 (![] : Fin 0 → Fin S3072x32.rank)
  reducesTo_S3072x32_S_d0_1 : S3072x32.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg5 : FVec F S3072 .f32) (main_v13 : IVec S_ 1) (main_v16 : IVec S3072x32 1) : IVec S_ 1 :=
  let main_c_5 : IVec S_ 1 := constantI S_ 1 1#1
  let main_v17 : IVec S_ 1 := (fun x v => Host.reduce IntOp.andi x v reducesTo_S3072x32_S_d0_1 h_S_) main_v16 main_c_5
  let main_v18 : IVec S_ 1 := andi main_v13 main_v17
  let main_v19 : FVec F S3072 .f32 := Host.absf main_arg5
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  main_v23

def fn {F : FTy → Type} [FloatOps F] (main_arg0 : FVec F S256x3072 .f32) (main_arg1 : IVec S3072x3072 32) (main_arg2 : FVec F S3072x48 .f32) (main_arg3 : FVec F S32x3072 .f32) (main_arg4 : FVec F S3072x32 .f32) (main_arg5 : FVec F S3072 .f32) : IVec S_ 1 :=
  let main_v0 : FVec F S256x3072 .f32 := Host.absf main_arg0
  let main_cst : FVec F S_ .f32 := constant S_ .f32 0x7F800000#32
  let main_v1 : FVec F S256x3072 .f32 := broadcastInDim S256x3072 ![] bcast_S_S256x3072 main_cst
  let main_v2 : IVec S256x3072 1 := cmpf .olt main_v0 main_v1
  let main_c : IVec S_ 1 := constantI S_ 1 1#1
  let main_v3 : IVec S_ 1 := (fun x v => Host.reduce IntOp.andi x v reducesTo_S256x3072_S_d0_1 h_S_) main_v2 main_c
  let main_v4 : FVec F S3072x48 .f32 := Host.absf main_arg2
  let main_cst_0 : FVec F S_ .f32 := constant S_ .f32 0x7F800000#32
  let main_v5 : FVec F S3072x48 .f32 := broadcastInDim S3072x48 ![] bcast_S_S3072x48 main_cst_0
  let main_v6 : IVec S3072x48 1 := cmpf .olt main_v4 main_v5
  let main_c_1 : IVec S_ 1 := constantI S_ 1 1#1
  let main_v7 : IVec S_ 1 := (fun x v => Host.reduce IntOp.andi x v reducesTo_S3072x48_S_d0_1 h_S_) main_v6 main_c_1
  let main_v8 : IVec S_ 1 := andi main_v3 main_v7
  let main_v9 : FVec F S32x3072 .f32 := Host.absf main_arg3
  let main_cst_2 : FVec F S_ .f32 := constant S_ .f32 0x7F800000#32
  let main_v10 : FVec F S32x3072 .f32 := broadcastInDim S32x3072 ![] bcast_S_S32x3072 main_cst_2
  let main_v11 : IVec S32x3072 1 := cmpf .olt main_v9 main_v10
  let main_c_3 : IVec S_ 1 := constantI S_ 1 1#1
  let main_v12 : IVec S_ 1 := (fun x v => Host.reduce IntOp.andi x v reducesTo_S32x3072_S_d0_1 h_S_) main_v11 main_c_3
  let main_v13 : IVec S_ 1 := andi main_v8 main_v12
  let main_v14 : FVec F S3072x32 .f32 := Host.absf main_arg4
  let main_cst_4 : FVec F S_ .f32 := constant S_ .f32 0x7F800000#32
  let main_v15 : FVec F S3072x32 .f32 := broadcastInDim S3072x32 ![] bcast_S_S3072x32 main_cst_4
  let main_v16 : IVec S3072x32 1 := cmpf .olt main_v14 main_v15
  fn_part1 (F := F) main_arg5 main_v13 main_v16
-- ==== Kernel.lean ====
abbrev S256x3072 : Shape := ⟨2, ![256, 3072]⟩
abbrev S3072x3072 : Shape := ⟨2, ![3072, 3072]⟩
abbrev S3072x48 : Shape := ⟨2, ![3072, 48]⟩
abbrev S32x3072 : Shape := ⟨2, ![32, 3072]⟩
abbrev S3072x32 : Shape := ⟨2, ![3072, 32]⟩
abbrev S3072 : Shape := ⟨1, ![3072]⟩
abbrev S256x48x64 : Shape := ⟨3, ![256, 48, 64]⟩
abbrev S_ : Shape := ⟨0, ![]⟩
abbrev S256x48 : Shape := ⟨2, ![256, 48]⟩
abbrev S256x48x1 : Shape := ⟨3, ![256, 48, 1]⟩
abbrev S48 : Shape := ⟨1, ![48]⟩
abbrev S48x1 : Shape := ⟨2, ![48, 1]⟩
abbrev S1x3072 : Shape := ⟨2, ![1, 3072]⟩
abbrev S48x3072 : Shape := ⟨2, ![48, 3072]⟩
abbrev S256x32 : Shape := ⟨2, ![256, 32]⟩
abbrev S1x256 : Shape := ⟨2, ![1, 256]⟩
abbrev S256x256 : Shape := ⟨2, ![256, 256]⟩

abbrev nBuf : Space → Nat
  | .hbm => 60
  | .vmem => 14
  | .smem => 0
  | _ => 0

abbrev bufTy : (tb : Table) → Fin (tcTables nBuf tb) → BufTy
  | .hbm, ⟨0, _⟩ => ⟨S256x3072, .f32⟩
  | .hbm, ⟨1, _⟩ => ⟨S3072x3072, .i32⟩
  | .hbm, ⟨2, _⟩ => ⟨S3072x48, .f32⟩
  | .hbm, ⟨3, _⟩ => ⟨S32x3072, .f32⟩
  | .hbm, ⟨4, _⟩ => ⟨S3072x32, .f32⟩
  | .hbm, ⟨5, _⟩ => ⟨S3072, .f32⟩
  | .hbm, ⟨6, _⟩ => ⟨S256x48x64, .f32⟩
  | .hbm, ⟨7, _⟩ => ⟨S256x48x64, .f32⟩
  | .hbm, ⟨8, _⟩ => ⟨S_, .f32⟩
  | .hbm, ⟨9, _⟩ => ⟨S256x48, .f32⟩
  | .hbm, ⟨10, _⟩ => ⟨S256x48x1, .f32⟩
  | .hbm, ⟨11, _⟩ => ⟨S_, .f32⟩
  | .hbm, ⟨12, _⟩ => ⟨S256x48x1, .f32⟩
  | .hbm, ⟨13, _⟩ => ⟨S256x48x1, .f32⟩
  | .hbm, ⟨14, _⟩ => ⟨S_, .f32⟩
  | .hbm, ⟨15, _⟩ => ⟨S256x48x1, .f32⟩
  | .hbm, ⟨16, _⟩ => ⟨S256x48x1, .f32⟩
  | .hbm, ⟨17, _⟩ => ⟨S256x48x64, .f32⟩
  | .hbm, ⟨18, _⟩ => ⟨S256x48x64, .f32⟩
  | .hbm, ⟨19, _⟩ => ⟨S256x48x64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S256x48x64, .f32⟩
  | .hbm, ⟨24, _⟩ => ⟨S256x48x64, .f32⟩
  | .hbm, ⟨25, _⟩ => ⟨S_, .f32⟩
  | .hbm, ⟨26, _⟩ => ⟨S256x48x64, .f32⟩
  | .hbm, ⟨27, _⟩ => ⟨S256x48x64, .f32⟩
  | .hbm, ⟨28, _⟩ => ⟨S256x48x64, .f32⟩
  | .hbm, ⟨29, _⟩ => ⟨S256x48x64, .f32⟩
  | .hbm, ⟨30, _⟩ => ⟨S256x3072, .f32⟩
  | .hbm, ⟨31, _⟩ => ⟨S256x3072, .bf16⟩
  | .hbm, ⟨32, _⟩ => ⟨S3072, .i32⟩
  | .hbm, ⟨33, _⟩ => ⟨S_, .i32⟩
  | .hbm, ⟨34, _⟩ => ⟨S_, .i32⟩
  | .hbm, ⟨35, _⟩ => ⟨S3072, .i32⟩
  | .hbm, ⟨36, _⟩ => ⟨S3072, .i32⟩
  | .hbm, ⟨37, _⟩ => ⟨S3072, .i32⟩
  | .hbm, ⟨38, _⟩ => ⟨S_, .i32⟩
  | .hbm, ⟨39, _⟩ => ⟨S3072, .i32⟩
  | .hbm, ⟨40, _⟩ => ⟨S3072, .i1⟩
  | .hbm, ⟨41, _⟩ => ⟨S3072, .i32⟩
  | .hbm, ⟨42, _⟩ => ⟨S3072, .i32⟩
  | .hbm, ⟨43, _⟩ => ⟨S_, .i32⟩
  | .hbm, ⟨44, _⟩ => ⟨S3072, .i32⟩
  | .hbm, ⟨45, _⟩ => ⟨S3072, .i1⟩
  | .hbm, ⟨46, _⟩ => ⟨S3072, .i1⟩
  | .hbm, ⟨47, _⟩ => ⟨S_, .i32⟩
  | .hbm, ⟨48, _⟩ => ⟨S3072, .i32⟩
  | .hbm, ⟨49, _⟩ => ⟨S3072, .i32⟩
  | .hbm, ⟨50, _⟩ => ⟨S3072, .i32⟩
  | .hbm, ⟨51, _⟩ => ⟨S48, .i32⟩
  | .hbm, ⟨52, _⟩ => ⟨S48x1, .i32⟩
  | .hbm, ⟨53, _⟩ => ⟨S1x3072, .i32⟩
  | .hbm, ⟨54, _⟩ => ⟨S48x3072, .i32⟩
  | .hbm, ⟨55, _⟩ => ⟨S48x3072, .i32⟩
  | .hbm, ⟨56, _⟩ => ⟨S48x3072, .i1⟩
  | .hbm, ⟨57, _⟩ => ⟨S48x3072, .bf16⟩
  | .hbm, ⟨58, _⟩ => ⟨S1x3072, .f32⟩
  | .hbm, ⟨59, _⟩ => ⟨S256x3072, .f32⟩
  | .local _ .vmem, ⟨0, _⟩ => ⟨S256x3072, .f32⟩
  | .local _ .vmem, ⟨1, _⟩ => ⟨S256x3072, .bf16⟩
  | .local _ .vmem, ⟨2, _⟩ => ⟨S32x3072, .f32⟩
  | .local _ .vmem, ⟨3, _⟩ => ⟨S48x3072, .bf16⟩
  | .local _ .vmem, ⟨4, _⟩ => ⟨S256x3072, .i32⟩
  | .local _ .vmem, ⟨5, _⟩ => ⟨S256x3072, .i32⟩
  | .local _ .vmem, ⟨6, _⟩ => ⟨S256x48, .f32⟩
  | .local _ .vmem, ⟨7, _⟩ => ⟨S256x48, .f32⟩
  | .local _ .vmem, ⟨8, _⟩ => ⟨S256x32, .f32⟩
  | .local _ .vmem, ⟨9, _⟩ => ⟨S256x32, .f32⟩
  | .local _ .vmem, ⟨10, _⟩ => ⟨S1x256, .f32⟩
  | .local _ .vmem, ⟨11, _⟩ => ⟨S1x256, .f32⟩
  | .local _ .vmem, ⟨12, _⟩ => ⟨S256x256, .f32⟩
  | .local _ .vmem, ⟨13, _⟩ => ⟨S256x256, .f32⟩
  | _, _ => ⟨S256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256x3072_S256x48x64 : S256x3072.ShapeCasts S256x48x64
  reducesTo_S256x48x64_S256x48_d2 : S256x48x64.ReducesTo [2] S256x48
  h_S_ : 0 < S_.numel
  bcast_S256x48_S256x48x1_0_1 : S256x48.BroadcastsInDim S256x48x1 (![0, 1] : Fin 2 → Fin S256x48x1.rank)
  bcast_S_S256x48x1 : S_.BroadcastsInDim S256x48x1 (![] : Fin 0 → Fin S256x48x1.rank)
  bcast_S256x48x1_S256x48x64_0_1_2 : S256x48x1.BroadcastsInDim S256x48x64 (![0, 1, 2] : Fin 3 → Fin S256x48x64.rank)
  bcast_S_S256x48x64 : S_.BroadcastsInDim S256x48x64 (![] : Fin 0 → Fin S256x48x64.rank)
  shapeCasts_S256x48x64_S256x3072 : S256x48x64.ShapeCasts S256x3072
  bitsLt_bf16_f32 : FTy.bits .bf16 < FTy.bits .f32
  bcast_S_S3072 : S_.BroadcastsInDim S3072 (![] : Fin 0 → Fin S3072.rank)
  bcast_S48_S48x1_0 : S48.BroadcastsInDim S48x1 (![0] : Fin 1 → Fin S48x1.rank)
  bcast_S3072_S1x3072_1 : S3072.BroadcastsInDim S1x3072 (![1] : Fin 1 → Fin S1x3072.rank)
  bcast_S1x3072_S48x3072_0_1 : S1x3072.BroadcastsInDim S48x3072 (![0, 1] : Fin 2 → Fin S48x3072.rank)
  bcast_S48x1_S48x3072_0_1 : S48x1.BroadcastsInDim S48x3072 (![0, 1] : Fin 2 → Fin S48x3072.rank)
  shapeCasts_S3072_S1x3072 : S3072.ShapeCasts S1x3072
  inb_S256x3072_S256x3072_0_0 : ∀ a, (![0, 0] : Fin 2 → Nat) a + S256x3072.size a ≤ S256x3072.size a
  h_S256x3072 : 0 < S256x3072.numel
  inb_S32x3072_S32x3072_0_0 : ∀ a, (![0, 0] : Fin 2 → Nat) a + S32x3072.size a ≤ S32x3072.size a
  h_S32x3072 : 0 < S32x3072.numel
  inb_S256x48_S256x48_0_0 : ∀ a, (![0, 0] : Fin 2 → Nat) a + S256x48.size a ≤ S256x48.size a
  h_S256x48 : 0 < S256x48.numel
  inb_S48x3072_S48x3072_0_0 : ∀ a, (![0, 0] : Fin 2 → Nat) a + S48x3072.size a ≤ S48x3072.size a
  h_S48x3072 : 0 < S48x3072.numel
  shapeCasts_S48x3072_S48x3072 : S48x3072.ShapeCasts S48x3072
  shapeCasts_S256x3072_S256x3072 : S256x3072.ShapeCasts S256x3072
  inb_S256x32_S256x32_0_0 : ∀ a, (![0, 0] : Fin 2 → Nat) a + S256x32.size a ≤ S256x32.size a
  h_S256x32 : 0 < S256x32.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x3072_S32x3072_S256x32_1_1_0_0_n_n_wf : DotDims.WF S256x3072 S32x3072 S256x32 [1] [1] [0] [0] [] []
  dot_S256x48_S48x3072_S256x3072_1_0_0_1_n_n_wf : DotDims.WF S256x48 S48x3072 S256x3072 [1] [0] [0] [1] [] []
  dot_S256x3072_S256x3072_S256x256_1_1_0_0_n_n_wf : DotDims.WF S256x3072 S256x3072 S256x256 [1] [1] [0] [0] [] []
  dot_S256x32_S256x32_S256x256_1_1_0_0_n_n_wf : DotDims.WF S256x32 S256x32 S256x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S256x3072.size a
  hwx0_0 : ∀ i : grid0.Coords, EltTy.bits .f32 = 32 ∨ (Rect.block (s := S256x3072) S256x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x3072.size a ≤ S256x3072.size a
  hwx0_1 : ∀ i : grid0.Coords, EltTy.bits .bf16 = 32 ∨ (Rect.block (s := S256x3072) S256x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x3072.size a ≤ S32x3072.size a
  hwx0_2 : ∀ i : grid0.Coords, EltTy.bits .f32 = 32 ∨ (Rect.block (s := S32x3072) S32x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x3072.size a ≤ S48x3072.size a
  hwx0_3 : ∀ i : grid0.Coords, EltTy.bits .bf16 = 32 ∨ (Rect.block (s := S48x3072) S48x3072.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x3072.size a ≤ S3072x3072.size a
  hwx0_4 : ∀ i : grid0.Coords, EltTy.bits .i32 = 32 ∨ (Rect.block (s := S3072x3072) S256x3072.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x48.size a ≤ S3072x48.size a
  hwx0_5 : ∀ i : grid0.Coords, EltTy.bits .f32 = 32 ∨ (Rect.block (s := S3072x48) S256x48.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S3072x32.size a
  hwx0_6 : ∀ i : grid0.Coords, EltTy.bits .f32 = 32 ∨ (Rect.block (s := S3072x32) S256x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x3072.size a
  hwx0_7 : ∀ i : grid0.Coords, EltTy.bits .f32 = 32 ∨ (Rect.block (s := S1x3072) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x3072.size a
  hwx0_8 : ∀ i : grid0.Coords, EltTy.bits .f32 = 32 ∨ (Rect.block (s := S256x3072) S256x256.size (cc0_transform_8 i) (hinb0_8 i)).WholeWords (EltTy.packing .f32)

variable [Facts₀]

def dot_S256x3072_S32x3072_S256x32_1_1_0_0_n_n : DotDims S256x3072 S32x3072 S256x32 where
  lhsContracting := [1]
  rhsContracting := [1]
  lhsNonContracting := [0]
  rhsNonContracting := [0]
  lhsBatch := []
  rhsBatch := []
  wf := dot_S256x3072_S32x3072_S256x32_1_1_0_0_n_n_wf
def dot_S256x48_S48x3072_S256x3072_1_0_0_1_n_n : DotDims S256x48 S48x3072 S256x3072 where
  lhsContracting := [1]
  rhsContracting := [0]
  lhsNonContracting := [0]
  rhsNonContracting := [1]
  lhsBatch := []
  rhsBatch := []
  wf := dot_S256x48_S48x3072_S256x3072_1_0_0_1_n_n_wf
def dot_S256x3072_S256x3072_S256x256_1_1_0_0_n_n : DotDims S256x3072 S256x3072 S256x256 where
  lhsContracting := [1]
  rhsContracting := [1]
  lhsNonContracting := [0]
  rhsNonContracting := [0]
  lhsBatch := []
  rhsBatch := []
  wf := dot_S256x3072_S256x3072_S256x256_1_1_0_0_n_n_wf
def dot_S256x32_S256x32_S256x256_1_1_0_0_n_n : DotDims S256x32 S256x32 S256x256 where
  lhsContracting := [1]
  rhsContracting := [1]
  lhsNonContracting := [0]
  rhsNonContracting := [0]
  lhsBatch := []
  rhsBatch := []
  wf := dot_S256x32_S256x32_S256x256_1_1_0_0_n_n_wf

abbrev win0_0 : Pipeline.Window sig grid0 :=
  Pipeline.Window.ofSpec (Memref.whole main_arg0) S256x3072.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S48x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x3072.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256x48.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26) S256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x3072 : Shape := ⟨2, ![256, 3072]⟩
abbrev S3072x3072 : Shape := ⟨2, ![3072, 3072]⟩
abbrev S3072x48 : Shape := ⟨2, ![3072, 48]⟩
abbrev S32x3072 : Shape := ⟨2, ![32, 3072]⟩
abbrev S3072x32 : Shape := ⟨2, ![3072, 32]⟩
abbrev S3072 : Shape := ⟨1, ![3072]⟩
abbrev S_ : Shape := ⟨0, ![]⟩
abbrev S3072x48x64 : Shape := ⟨3, ![3072, 48, 64]⟩
abbrev S3072x48x1 : Shape := ⟨3, ![3072, 48, 1]⟩
abbrev S256x48x64 : Shape := ⟨3, ![256, 48, 64]⟩
abbrev S256x48 : Shape := ⟨2, ![256, 48]⟩
abbrev S256x48x1 : Shape := ⟨3, ![256, 48, 1]⟩
abbrev S256x32 : Shape := ⟨2, ![256, 32]⟩
abbrev S1x3072 : Shape := ⟨2, ![1, 3072]⟩

abbrev nBuf : Space → Nat
  | .hbm => 50
  | .vmem => 0
  | .smem => 0
  | _ => 0

abbrev bufTy : (tb : Table) → Fin (tcTables nBuf tb) → BufTy
  | .hbm, ⟨0, _⟩ => ⟨S256x3072, .f32⟩
  | .hbm, ⟨1, _⟩ => ⟨S3072x3072, .i32⟩
  | .hbm, ⟨2, _⟩ => ⟨S3072x48, .f32⟩
  | .hbm, ⟨3, _⟩ => ⟨S32x3072, .f32⟩
  | .hbm, ⟨4, _⟩ => ⟨S3072x32, .f32⟩
  | .hbm, ⟨5, _⟩ => ⟨S3072, .f32⟩
  | .hbm, ⟨6, _⟩ => ⟨S3072x3072, .f32⟩
  | .hbm, ⟨7, _⟩ => ⟨S_, .f32⟩
  | .hbm, ⟨8, _⟩ => ⟨S3072x3072, .f32⟩
  | .hbm, ⟨9, _⟩ => ⟨S3072x3072, .f32⟩
  | .hbm, ⟨10, _⟩ => ⟨S3072x48x64, .f32⟩
  | .hbm, ⟨11, _⟩ => ⟨S3072x48x1, .f32⟩
  | .hbm, ⟨12, _⟩ => ⟨S3072x48x64, .f32⟩
  | .hbm, ⟨13, _⟩ => ⟨S3072x48x64, .f32⟩
  | .hbm, ⟨14, _⟩ => ⟨S3072x3072, .f32⟩
  | .hbm, ⟨15, _⟩ => ⟨S256x48x64, .f32⟩
  | .hbm, ⟨16, _⟩ => ⟨S256x48x64, .f32⟩
  | .hbm, ⟨17, _⟩ => ⟨S_, .f32⟩
  | .hbm, ⟨18, _⟩ => ⟨S256x48, .f32⟩
  | .hbm, ⟨19, _⟩ => ⟨S256x48x1, .f32⟩
  | .hbm, ⟨20, _⟩ => ⟨S_, .f32⟩
  | .hbm, ⟨21, _⟩ => ⟨S256x48x1, .f32⟩
  | .hbm, ⟨22, _⟩ => ⟨S256x48x1, .f32⟩
  | .hbm, ⟨23, _⟩ => ⟨S_, .f32⟩
  | .hbm, ⟨24, _⟩ => ⟨S256x48x1, .f32⟩
  | .hbm, ⟨25, _⟩ => ⟨S256x48x1, .f32⟩
  | .hbm, ⟨26, _⟩ => ⟨S256x48x64, .f32⟩
  | .hbm, ⟨27, _⟩ => ⟨S256x48x64, .f32⟩
  | .hbm, ⟨28, _⟩ => ⟨S256x48x64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S256x48x64, .f32⟩
  | .hbm, ⟨33, _⟩ => ⟨S256x48x64, .f32⟩
  | .hbm, ⟨34, _⟩ => ⟨S_, .f32⟩
  | .hbm, ⟨35, _⟩ => ⟨S256x48x64, .f32⟩
  | .hbm, ⟨36, _⟩ => ⟨S256x48x64, .f32⟩
  | .hbm, ⟨37, _⟩ => ⟨S256x48x64, .f32⟩
  | .hbm, ⟨38, _⟩ => ⟨S256x48x64, .f32⟩
  | .hbm, ⟨39, _⟩ => ⟨S256x3072, .f32⟩
  | .hbm, ⟨40, _⟩ => ⟨S3072x3072, .f32⟩
  | .hbm, ⟨41, _⟩ => ⟨S256x3072, .f32⟩
  | .hbm, ⟨42, _⟩ => ⟨S3072x32, .f32⟩
  | .hbm, ⟨43, _⟩ => ⟨S256x32, .f32⟩
  | .hbm, ⟨44, _⟩ => ⟨S32x3072, .f32⟩
  | .hbm, ⟨45, _⟩ => ⟨S256x3072, .f32⟩
  | .hbm, ⟨46, _⟩ => ⟨S256x3072, .f32⟩
  | .hbm, ⟨47, _⟩ => ⟨S1x3072, .f32⟩
  | .hbm, ⟨48, _⟩ => ⟨S256x3072, .f32⟩
  | .hbm, ⟨49, _⟩ => ⟨S256x3072, .f32⟩
  | _, _ => ⟨S256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S_S3072x3072 : S_.BroadcastsInDim S3072x3072 (![] : Fin 0 → Fin S3072x3072.rank)
  shapeCasts_S3072x3072_S3072x48x64 : S3072x3072.ShapeCasts S3072x48x64
  bcast_S3072x48_S3072x48x1_0_1 : S3072x48.BroadcastsInDim S3072x48x1 (![0, 1] : Fin 2 → Fin S3072x48x1.rank)
  bcast_S3072x48x1_S3072x48x64_0_1_2 : S3072x48x1.BroadcastsInDim S3072x48x64 (![0, 1, 2] : Fin 3 → Fin S3072x48x64.rank)
  shapeCasts_S3072x48x64_S3072x3072 : S3072x48x64.ShapeCasts S3072x3072
  shapeCasts_S256x3072_S256x48x64 : S256x3072.ShapeCasts S256x48x64
  reducesTo_S256x48x64_S256x48_d2 : S256x48x64.ReducesTo [2] S256x48
  h_S_ : 0 < S_.numel
  bcast_S256x48_S256x48x1_0_1 : S256x48.BroadcastsInDim S256x48x1 (![0, 1] : Fin 2 → Fin S256x48x1.rank)
  bcast_S_S256x48x1 : S_.BroadcastsInDim S256x48x1 (![] : Fin 0 → Fin S256x48x1.rank)
  bcast_S256x48x1_S256x48x64_0_1_2 : S256x48x1.BroadcastsInDim S256x48x64 (![0, 1, 2] : Fin 3 → Fin S256x48x64.rank)
  bcast_S_S256x48x64 : S_.BroadcastsInDim S256x48x64 (![] : Fin 0 → Fin S256x48x64.rank)
  shapeCasts_S256x48x64_S256x3072 : S256x48x64.ShapeCasts S256x3072
  transposes_S3072x3072_S3072x3072_1_0 : S3072x3072.Transposes [1, 0] S3072x3072
  transposes_S32x3072_S3072x32_1_0 : S32x3072.Transposes [1, 0] S3072x32
  transposes_S3072x32_S32x3072_1_0 : S3072x32.Transposes [1, 0] S32x3072
  bcast_S3072_S1x3072_1 : S3072.BroadcastsInDim S1x3072 (![1] : Fin 1 → Fin S1x3072.rank)
  bcast_S1x3072_S256x3072_0_1 : S1x3072.BroadcastsInDim S256x3072 (![0, 1] : Fin 2 → Fin S256x3072.rank)
  dot_S256x3072_S3072x3072_S256x3072_1_0_0_1_n_n_wf : DotDims.WF S256x3072 S3072x3072 S256x3072 [1] [0] [0] [1] [] []
  dot_S256x3072_S3072x32_S256x32_1_0_0_1_n_n_wf : DotDims.WF S256x3072 S3072x32 S256x32 [1] [0] [0] [1] [] []
  dot_S256x32_S32x3072_S256x3072_1_0_0_1_n_n_wf : DotDims.WF S256x32 S32x3072 S256x3072 [1] [0] [0] [1] [] []

variable [Facts₀]

def dot_S256x3072_S3072x3072_S256x3072_1_0_0_1_n_n : DotDims S256x3072 S3072x3072 S256x3072 where
  lhsContracting := [1]
  rhsContracting := [0]
  lhsNonContracting := [0]
  rhsNonContracting := [1]
  lhsBatch := []
  rhsBatch := []
  wf := dot_S256x3072_S3072x3072_S256x3072_1_0_0_1_n_n_wf
def dot_S256x3072_S3072x32_S256x32_1_0_0_1_n_n : DotDims S256x3072 S3072x32 S256x32 where
  lhsContracting := [1]
  rhsContracting := [0]
  lhsNonContracting := [0]
  rhsNonContracting := [1]
  lhsBatch := []
  rhsBatch := []
  wf := dot_S256x3072_S3072x32_S256x32_1_0_0_1_n_n_wf
def dot_S256x32_S32x3072_S256x3072_1_0_0_1_n_n : DotDims S256x32 S32x3072 S256x3072 where
  lhsContracting := [1]
  rhsContracting := [0]
  lhsNonContracting := [0]
  rhsNonContracting := [1]
  lhsBatch := []
  rhsBatch := []
  wf := dot_S256x32_S32x3072_S256x3072_1_0_0_1_n_n_wf

class Facts : Prop extends Facts₀ where

variable [Facts]
-- ==== Proof.Spec.lean ====
/-
  The common value of the two programs, as one function of the argument arrays.

  Both programs compute, for a token row `t` and an output channel `n`,

      out[t, n] = (∑ₖ xq[t, k] · w[n, k]) + (∑ᵣ (∑ₖ x[t, k] · ld[r, k]) · lu[n, r]) + bias[n]

  where `xq` is the fake-quantized activation (the same host computation of `x` on both sides, kept whole
  here as an argument), and `w[n, k] = (code[n, k] − 8) · ws[n, k / 64]` is the dequantized weight: an integer code
  read as a number, its zero point 8 taken off, times the scale of the group of 64 input columns that holds `k`.
  The reference gets the group's scale by reshaping to [3072, 48, 64] and broadcasting; the kernel gets it by
  multiplying the [rows, 48] scales with a 48 × 3072 matrix of zeros and ones whose column `k` has its one in
  row `k / 64`: a sum with a single non-zero term (`sum_mul_onehot`).
-/
import Idealize.ShloMosaic.PureOps.Ideal
import Idealize.ShloMosaic.Lib.ValueIdx

noncomputable section

namespace Cert.Spec

open Idealize.ShloMosaic Idealize.ShloMosaic.ValueIdx

abbrev A256x3072 : Shape := ⟨2, ![256, 3072]⟩
abbrev A3072x3072 : Shape := ⟨2, ![3072, 3072]⟩
abbrev A3072x48 : Shape := ⟨2, ![3072, 48]⟩
abbrev A32x3072 : Shape := ⟨2, ![32, 3072]⟩
abbrev A3072x32 : Shape := ⟨2, ![3072, 32]⟩
abbrev A3072 : Shape := ⟨1, ![3072]⟩

/-- The group of 64 input columns that holds column `k`. -/
def grp (k : Fin 3072) : Fin 48 := ⟨k.val / 64, by have := k.isLt; omega⟩

/-- The dequantized weight `w[n, k] = (code[n, k] − 8) · ws[n, k / 64]`; the word `0x41000000` is the float 8. -/
def deq (qw : Vec Ideal A3072x3072 .i32) (ws : Vec Ideal A3072x48 .f32) (n k : Fin 3072) : EReal :=
  ((FloatOps.sitofp (F := Ideal) .f32 (qw (ix2 n k)) : EReal) - Ideal.ofBits .f32 0x41000000#32) * ws (ix2 n (grp k))

/-- The low-rank branch's middle value `mid[t, r] = ∑ₖ x[t, k] · ld[r, k]`. -/
def mid (x : Vec Ideal A256x3072 .f32) (ld : Vec Ideal A32x3072 .f32) (t : Fin 256) (r : Fin 32) : EReal :=
  ∑ k : Fin 3072, x (ix2 t k) * ld (ix2 r k)

/-- The result array, index by index. -/
def G (xq x : Vec Ideal A256x3072 .f32) (qw : Vec Ideal A3072x3072 .i32) (ws : Vec Ideal A3072x48 .f32)
    (ld : Vec Ideal A32x3072 .f32) (lu : Vec Ideal A3072x32 .f32) (b : Vec Ideal A3072 .f32) : Vec Ideal A256x3072 .f32 :=
  fun i => (∑ k : Fin 3072, xq (ix2 (i 0) k) * deq qw ws (i 1) k)
    + (∑ r : Fin 32, mid x ld (i 0) r * lu (ix2 (i 1) r)) + b (ix1 (i 1))

/-- A sum against a column of zeros with a single one picks that term: on the extended reals `a · 0 = 0` and
    `a · 1 = a` for every `a`, the infinities included, so nothing is asked of the `f g`. -/
theorem sum_mul_onehot {n : Nat} (f e : Fin n → EReal) (g0 : Fin n) (he : ∀ g, e g = if g = g0 then 1 else 0) :
    ∑ g : Fin n, f g * e g = f g0 := by
  rw [Finset.sum_eq_single g0]
  · rw [he g0, if_pos rfl, mul_one]
  · intro g _ hg
    rw [he g, if_neg hg, mul_zero]
  · intro h
    exact absurd (Finset.mem_univ g0) h

end Cert.Spec

end
-- ==== Proof.HostReads.lean ====
/-
  What the region finds in the two arrays that host operations of @main write before it and that are not the
  one-hot matrix: the fake-quantized activation and the bias as a row.

  The kernel program fake-quantizes the activation on the host exactly as the reference does — the same
  operations in the same order with the same constants (reshape to groups of 64, the group's largest magnitude
  over 7 floored at 1e-8, divide, round to even, clip to [-8, 7], multiply back, reshape) — and then changes its
  format to bf16, which is the identity on the extended reals. So the array it stages is the reference's stage
  `val_main_v22` of the same argument: the two terms are one expression.
-/
import proofs.«146119_j52261162058321_1_alg».proof.Proof.Gen.KernelIdeal.Frame
import proofs.«146119_j52261162058321_1_alg».proof.Proof.Gen.ReferenceIdeal.Read
import Idealize.ShloMosaic.Lib.StableHlo.Run

noncomputable section

namespace Cert.KernelIdeal.HostReads

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxRecDepth 8192 in
set_option maxHeartbeats 2000000 in
/-- The staged quantized activation is the reference's quantized activation of the same argument, its format
    changed. -/
theorem V_main_v15 (c : Dev nD) :
    (V m c main_v15 : (⟨S256x3072, .bf16⟩ : BufTy).Contents (Elt F))
      = truncf .bf16 (Cert.ReferenceIdeal.Read.val_main_v22 (F := F) (m ((c : Thread nD τ).loc main_arg0))) bitsLt_bf16_f32 := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

set_option maxRecDepth 8192 in
set_option maxHeartbeats 2000000 in
/-- The staged bias is the bias argument laid out as one row. -/
theorem V_main_v25 (c : Dev nD) :
    (V m c main_v25 : (⟨S1x3072, .f32⟩ : BufTy).Contents (Elt F))
      = shapeCast S1x3072 (m ((c : Thread nD τ).loc main_arg5)) shapeCasts_S3072_S1x3072 := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

end Cert.KernelIdeal.HostReads

end
-- ==== Proof.Payload.lean ====
import proofs.«146119_j52261162058321_1_alg».proof.Proof.Gen.KernelIdeal.Skeleton
import proofs.«146119_j52261162058321_1_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Idealize.ShloMosaic Idealize.ShloMosaic.ValueIdx Idealize.ShloMosaic.TcCoe Idealize.SL.Sem

/-!
  The value the kernel body stores, read at one entry (t, j) at the ideal values.

  At the ideal values a narrowing conversion is the identity and a matrix product into the zero accumulator is the
  plain sum of products over the contracted coordinate. The stored value is built from four such products:

    mid[t, r]  = ∑ₖ x[t, k] · ld[r, k]                      (x @ ldᵀ)
    sc[j, k]   = ∑_g ws[j, g] · e[g, k]                      (ws @ e: the scale of the group that holds column k)
    w[j, k]    = (code[j, k] − 8) · sc[j, k]                 (the dequantized weight)
    out[t, j]  = (∑ₖ xq[t, k] · w[j, k]) + (∑ᵣ mid[t, r] · lu[j, r]) + bias[0, j]

  Each product is first read at an entry as a sum over `Fin K`: the contraction index of a one-axis contraction is its
  one coordinate, and each operand's index at (output entry, contraction coordinate) is named axis by axis. The
  pointwise operations, the casts of a shape to itself and the row broadcast are then read at the entry, which puts
  the four sums in place.
-/

/-! ### `x @ ldᵀ`: both operands are contracted along their axis 1, so the entry (p, q) is `∑ₖ lhs[p, k] · rhs[q, k]`. -/

/-- The left operand's kept axis 0 carries the output row. -/
theorem lhs_xld_0 (i : S256x32.Idx) (q : dot_S256x3072_S32x3072_S256x32_1_1_0_0_n_n.contr.Idx) :
    (dot_S256x3072_S32x3072_S256x32_1_1_0_0_n_n.lhsIdx i q 0).val = (i 0).val := by
  unfold DotDims.lhsIdx
  rw [dif_neg (show ¬(0 : Fin S256x3072.rank) ∈ dot_S256x3072_S32x3072_S256x32_1_1_0_0_n_n.lhsBatch by decide), dif_pos (show (0 : Fin S256x3072.rank) ∈ dot_S256x3072_S32x3072_S256x32_1_1_0_0_n_n.lhsNonContracting by decide)]
  rfl
/-- The left operand's contracted axis 1 carries the contraction coordinate. -/
theorem lhs_xld_1 (i : S256x32.Idx) (q : dot_S256x3072_S32x3072_S256x32_1_1_0_0_n_n.contr.Idx) :
    (dot_S256x3072_S32x3072_S256x32_1_1_0_0_n_n.lhsIdx i q 1).val = (q ⟨0, by decide⟩).val :=
  dot_S256x3072_S32x3072_S256x32_1_1_0_0_n_n.lhsIdx_val_of_single rfl i q
/-- The right operand's kept axis 0 carries the output column. -/
theorem rhs_xld_0 (i : S256x32.Idx) (q : dot_S256x3072_S32x3072_S256x32_1_1_0_0_n_n.contr.Idx) :
    (dot_S256x3072_S32x3072_S256x32_1_1_0_0_n_n.rhsIdx i q 0).val = (i 1).val := by
  unfold DotDims.rhsIdx
  rw [dif_neg (show ¬(0 : Fin S32x3072.rank) ∈ dot_S256x3072_S32x3072_S256x32_1_1_0_0_n_n.rhsBatch by decide), dif_pos (show (0 : Fin S32x3072.rank) ∈ dot_S256x3072_S32x3072_S256x32_1_1_0_0_n_n.rhsNonContracting by decide)]
  rfl
/-- The right operand's contracted axis 1 carries the contraction coordinate. -/
theorem rhs_xld_1 (i : S256x32.Idx) (q : dot_S256x3072_S32x3072_S256x32_1_1_0_0_n_n.contr.Idx) :
    (dot_S256x3072_S32x3072_S256x32_1_1_0_0_n_n.rhsIdx i q 1).val = (q ⟨0, by decide⟩).val :=
  dot_S256x3072_S32x3072_S256x32_1_1_0_0_n_n.rhsIdx_val_of_single rfl i q

/-- The product into the zero accumulator, read at the entry (p, q), is the plain sum over the contracted coordinate. -/
theorem mm_xld {φ₁ φ₂ : FTy} (lhs : FVec Ideal S256x3072 φ₁) (rhs : FVec Ideal S32x3072 φ₂) (p : Fin 256) (q : Fin 32) :
    FloatOps.matmul dot_S256x3072_S32x3072_S256x32_1_1_0_0_n_n none lhs rhs (constant (F := Ideal) S256x32 .f32 0x00000000#32) (ix2 p q)
      = ∑ k : Fin 3072, lhs (ix2 p k) * rhs (ix2 q k) := by
  rw [Ideal.matmul_constant_zero_apply, ← Equiv.sum_comp (contrEquiv1 dot_S256x3072_S32x3072_S256x32_1_1_0_0_n_n 3072 rfl rfl).symm]
  refine Finset.sum_congr rfl fun k _ => ?_
  have hk := contrEquiv1_symm_val dot_S256x3072_S32x3072_S256x32_1_1_0_0_n_n 3072 rfl rfl k
  have el : dot_S256x3072_S32x3072_S256x32_1_1_0_0_n_n.lhsIdx (ix2 p q) ((contrEquiv1 dot_S256x3072_S32x3072_S256x32_1_1_0_0_n_n 3072 rfl rfl).symm k) = ix2 p k := funext fun a => Fin.ext (by
    match a with
    | ⟨0, _⟩ => exact lhs_xld_0 _ _
    | ⟨1, _⟩ => exact (lhs_xld_1 _ _).trans hk)
  have er : dot_S256x3072_S32x3072_S256x32_1_1_0_0_n_n.rhsIdx (ix2 p q) ((contrEquiv1 dot_S256x3072_S32x3072_S256x32_1_1_0_0_n_n 3072 rfl rfl).symm k) = ix2 q k := funext fun a => Fin.ext (by
    match a with
    | ⟨0, _⟩ => exact rhs_xld_0 _ _
    | ⟨1, _⟩ => exact (rhs_xld_1 _ _).trans hk)
  rw [el, er]

/-! ### `ws @ e`: the left operand is contracted along its axis 1 and the right one along its axis 0, so the entry (p, q) is `∑ₖ lhs[p, k] · rhs[k, q]`. -/

/-- The left operand's kept axis 0 carries the output row. -/
theorem lhs_wse_0 (i : S256x3072.Idx) (q : dot_S256x48_S48x3072_S256x3072_1_0_0_1_n_n.contr.Idx) :
    (dot_S256x48_S48x3072_S256x3072_1_0_0_1_n_n.lhsIdx i q 0).val = (i 0).val := by
  unfold DotDims.lhsIdx
  rw [dif_neg (show ¬(0 : Fin S256x48.rank) ∈ dot_S256x48_S48x3072_S256x3072_1_0_0_1_n_n.lhsBatch by decide), dif_pos (show (0 : Fin S256x48.rank) ∈ dot_S256x48_S48x3072_S256x3072_1_0_0_1_n_n.lhsNonContracting by decide)]
  rfl
/-- The left operand's contracted axis 1 carries the contraction coordinate. -/
theorem lhs_wse_1 (i : S256x3072.Idx) (q : dot_S256x48_S48x3072_S256x3072_1_0_0_1_n_n.contr.Idx) :
    (dot_S256x48_S48x3072_S256x3072_1_0_0_1_n_n.lhsIdx i q 1).val = (q ⟨0, by decide⟩).val :=
  dot_S256x48_S48x3072_S256x3072_1_0_0_1_n_n.lhsIdx_val_of_single rfl i q
/-- The right operand's kept axis 1 carries the output column. -/
theorem rhs_wse_1 (i : S256x3072.Idx) (q : dot_S256x48_S48x3072_S256x3072_1_0_0_1_n_n.contr.Idx) :
    (dot_S256x48_S48x3072_S256x3072_1_0_0_1_n_n.rhsIdx i q 1).val = (i 1).val := by
  unfold DotDims.rhsIdx
  rw [dif_neg (show ¬(1 : Fin S48x3072.rank) ∈ dot_S256x48_S48x3072_S256x3072_1_0_0_1_n_n.rhsBatch by decide), dif_pos (show (1 : Fin S48x3072.rank) ∈ dot_S256x48_S48x3072_S256x3072_1_0_0_1_n_n.rhsNonContracting by decide)]
  rfl
/-- The right operand's contracted axis 0 carries the contraction coordinate. -/
theorem rhs_wse_0 (i : S256x3072.Idx) (q : dot_S256x48_S48x3072_S256x3072_1_0_0_1_n_n.contr.Idx) :
    (dot_S256x48_S48x3072_S256x3072_1_0_0_1_n_n.rhsIdx i q 0).val = (q ⟨0, by decide⟩).val :=
  dot_S256x48_S48x3072_S256x3072_1_0_0_1_n_n.rhsIdx_val_of_single rfl i q

/-- The product into the zero accumulator, read at the entry (p, q), is the plain sum over the contracted coordinate. -/
theorem mm_wse {φ₁ φ₂ : FTy} (lhs : FVec Ideal S256x48 φ₁) (rhs : FVec Ideal S48x3072 φ₂) (p : Fin 256) (q : Fin 3072) :
    FloatOps.matmul dot_S256x48_S48x3072_S256x3072_1_0_0_1_n_n none lhs rhs (constant (F := Ideal) S256x3072 .f32 0x00000000#32) (ix2 p q)
      = ∑ k : Fin 48, lhs (ix2 p k) * rhs (ix2 k q) := by
  rw [Ideal.matmul_constant_zero_apply, ← Equiv.sum_comp (contrEquiv1 dot_S256x48_S48x3072_S256x3072_1_0_0_1_n_n 48 rfl rfl).symm]
  refine Finset.sum_congr rfl fun k _ => ?_
  have hk := contrEquiv1_symm_val dot_S256x48_S48x3072_S256x3072_1_0_0_1_n_n 48 rfl rfl k
  have el : dot_S256x48_S48x3072_S256x3072_1_0_0_1_n_n.lhsIdx (ix2 p q) ((contrEquiv1 dot_S256x48_S48x3072_S256x3072_1_0_0_1_n_n 48 rfl rfl).symm k) = ix2 p k := funext fun a => Fin.ext (by
    match a with
    | ⟨0, _⟩ => exact lhs_wse_0 _ _
    | ⟨1, _⟩ => exact (lhs_wse_1 _ _).trans hk)
  have er : dot_S256x48_S48x3072_S256x3072_1_0_0_1_n_n.rhsIdx (ix2 p q) ((contrEquiv1 dot_S256x48_S48x3072_S256x3072_1_0_0_1_n_n 48 rfl rfl).symm k) = ix2 k q := funext fun a => Fin.ext (by
    match a with
    | ⟨0, _⟩ => exact (rhs_wse_0 _ _).trans hk
    | ⟨1, _⟩ => exact rhs_wse_1 _ _)
  rw [el, er]

/-! ### `xdq @ wᵀ`: both operands are contracted along their axis 1, so the entry (p, q) is `∑ₖ lhs[p, k] · rhs[q, k]`. -/

/-- The left operand's kept axis 0 carries the output row. -/
theorem lhs_xw_0 (i : S256x256.Idx) (q : dot_S256x3072_S256x3072_S256x256_1_1_0_0_n_n.contr.Idx) :
    (dot_S256x3072_S256x3072_S256x256_1_1_0_0_n_n.lhsIdx i q 0).val = (i 0).val := by
  unfold DotDims.lhsIdx
  rw [dif_neg (show ¬(0 : Fin S256x3072.rank) ∈ dot_S256x3072_S256x3072_S256x256_1_1_0_0_n_n.lhsBatch by decide), dif_pos (show (0 : Fin S256x3072.rank) ∈ dot_S256x3072_S256x3072_S256x256_1_1_0_0_n_n.lhsNonContracting by decide)]
  rfl
/-- The left operand's contracted axis 1 carries the contraction coordinate. -/
theorem lhs_xw_1 (i : S256x256.Idx) (q : dot_S256x3072_S256x3072_S256x256_1_1_0_0_n_n.contr.Idx) :
    (dot_S256x3072_S256x3072_S256x256_1_1_0_0_n_n.lhsIdx i q 1).val = (q ⟨0, by decide⟩).val :=
  dot_S256x3072_S256x3072_S256x256_1_1_0_0_n_n.lhsIdx_val_of_single rfl i q
/-- The right operand's kept axis 0 carries the output column. -/
theorem rhs_xw_0 (i : S256x256.Idx) (q : dot_S256x3072_S256x3072_S256x256_1_1_0_0_n_n.contr.Idx) :
    (dot_S256x3072_S256x3072_S256x256_1_1_0_0_n_n.rhsIdx i q 0).val = (i 1).val := by
  unfold DotDims.rhsIdx
  rw [dif_neg (show ¬(0 : Fin S256x3072.rank) ∈ dot_S256x3072_S256x3072_S256x256_1_1_0_0_n_n.rhsBatch by decide), dif_pos (show (0 : Fin S256x3072.rank) ∈ dot_S256x3072_S256x3072_S256x256_1_1_0_0_n_n.rhsNonContracting by decide)]
  rfl
/-- The right operand's contracted axis 1 carries the contraction coordinate. -/
theorem rhs_xw_1 (i : S256x256.Idx) (q : dot_S256x3072_S256x3072_S256x256_1_1_0_0_n_n.contr.Idx) :
    (dot_S256x3072_S256x3072_S256x256_1_1_0_0_n_n.rhsIdx i q 1).val = (q ⟨0, by decide⟩).val :=
  dot_S256x3072_S256x3072_S256x256_1_1_0_0_n_n.rhsIdx_val_of_single rfl i q

/-- The product into the zero accumulator, read at the entry (p, q), is the plain sum over the contracted coordinate. -/
theorem mm_xw {φ₁ φ₂ : FTy} (lhs : FVec Ideal S256x3072 φ₁) (rhs : FVec Ideal S256x3072 φ₂) (p : Fin 256) (q : Fin 256) :
    FloatOps.matmul dot_S256x3072_S256x3072_S256x256_1_1_0_0_n_n none lhs rhs (constant (F := Ideal) S256x256 .f32 0x00000000#32) (ix2 p q)
      = ∑ k : Fin 3072, lhs (ix2 p k) * rhs (ix2 q k) := by
  rw [Ideal.matmul_constant_zero_apply, ← Equiv.sum_comp (contrEquiv1 dot_S256x3072_S256x3072_S256x256_1_1_0_0_n_n 3072 rfl rfl).symm]
  refine Finset.sum_congr rfl fun k _ => ?_
  have hk := contrEquiv1_symm_val dot_S256x3072_S256x3072_S256x256_1_1_0_0_n_n 3072 rfl rfl k
  have el : dot_S256x3072_S256x3072_S256x256_1_1_0_0_n_n.lhsIdx (ix2 p q) ((contrEquiv1 dot_S256x3072_S256x3072_S256x256_1_1_0_0_n_n 3072 rfl rfl).symm k) = ix2 p k := funext fun a => Fin.ext (by
    match a with
    | ⟨0, _⟩ => exact lhs_xw_0 _ _
    | ⟨1, _⟩ => exact (lhs_xw_1 _ _).trans hk)
  have er : dot_S256x3072_S256x3072_S256x256_1_1_0_0_n_n.rhsIdx (ix2 p q) ((contrEquiv1 dot_S256x3072_S256x3072_S256x256_1_1_0_0_n_n 3072 rfl rfl).symm k) = ix2 q k := funext fun a => Fin.ext (by
    match a with
    | ⟨0, _⟩ => exact rhs_xw_0 _ _
    | ⟨1, _⟩ => exact (rhs_xw_1 _ _).trans hk)
  rw [el, er]

/-! ### `mid @ luᵀ`: both operands are contracted along their axis 1, so the entry (p, q) is `∑ₖ lhs[p, k] · rhs[q, k]`. -/

/-- The left operand's kept axis 0 carries the output row. -/
theorem lhs_mlu_0 (i : S256x256.Idx) (q : dot_S256x32_S256x32_S256x256_1_1_0_0_n_n.contr.Idx) :
    (dot_S256x32_S256x32_S256x256_1_1_0_0_n_n.lhsIdx i q 0).val = (i 0).val := by
  unfold DotDims.lhsIdx
  rw [dif_neg (show ¬(0 : Fin S256x32.rank) ∈ dot_S256x32_S256x32_S256x256_1_1_0_0_n_n.lhsBatch by decide), dif_pos (show (0 : Fin S256x32.rank) ∈ dot_S256x32_S256x32_S256x256_1_1_0_0_n_n.lhsNonContracting by decide)]
  rfl
/-- The left operand's contracted axis 1 carries the contraction coordinate. -/
theorem lhs_mlu_1 (i : S256x256.Idx) (q : dot_S256x32_S256x32_S256x256_1_1_0_0_n_n.contr.Idx) :
    (dot_S256x32_S256x32_S256x256_1_1_0_0_n_n.lhsIdx i q 1).val = (q ⟨0, by decide⟩).val :=
  dot_S256x32_S256x32_S256x256_1_1_0_0_n_n.lhsIdx_val_of_single rfl i q
/-- The right operand's kept axis 0 carries the output column. -/
theorem rhs_mlu_0 (i : S256x256.Idx) (q : dot_S256x32_S256x32_S256x256_1_1_0_0_n_n.contr.Idx) :
    (dot_S256x32_S256x32_S256x256_1_1_0_0_n_n.rhsIdx i q 0).val = (i 1).val := by
  unfold DotDims.rhsIdx
  rw [dif_neg (show ¬(0 : Fin S256x32.rank) ∈ dot_S256x32_S256x32_S256x256_1_1_0_0_n_n.rhsBatch by decide), dif_pos (show (0 : Fin S256x32.rank) ∈ dot_S256x32_S256x32_S256x256_1_1_0_0_n_n.rhsNonContracting by decide)]
  rfl
/-- The right operand's contracted axis 1 carries the contraction coordinate. -/
theorem rhs_mlu_1 (i : S256x256.Idx) (q : dot_S256x32_S256x32_S256x256_1_1_0_0_n_n.contr.Idx) :
    (dot_S256x32_S256x32_S256x256_1_1_0_0_n_n.rhsIdx i q 1).val = (q ⟨0, by decide⟩).val :=
  dot_S256x32_S256x32_S256x256_1_1_0_0_n_n.rhsIdx_val_of_single rfl i q

/-- The product into the zero accumulator, read at the entry (p, q), is the plain sum over the contracted coordinate. -/
theorem mm_mlu {φ₁ φ₂ : FTy} (lhs : FVec Ideal S256x32 φ₁) (rhs : FVec Ideal S256x32 φ₂) (p : Fin 256) (q : Fin 256) :
    FloatOps.matmul dot_S256x32_S256x32_S256x256_1_1_0_0_n_n none lhs rhs (constant (F := Ideal) S256x256 .f32 0x00000000#32) (ix2 p q)
      = ∑ k : Fin 32, lhs (ix2 p k) * rhs (ix2 q k) := by
  rw [Ideal.matmul_constant_zero_apply, ← Equiv.sum_comp (contrEquiv1 dot_S256x32_S256x32_S256x256_1_1_0_0_n_n 32 rfl rfl).symm]
  refine Finset.sum_congr rfl fun k _ => ?_
  have hk := contrEquiv1_symm_val dot_S256x32_S256x32_S256x256_1_1_0_0_n_n 32 rfl rfl k
  have el : dot_S256x32_S256x32_S256x256_1_1_0_0_n_n.lhsIdx (ix2 p q) ((contrEquiv1 dot_S256x32_S256x32_S256x256_1_1_0_0_n_n 32 rfl rfl).symm k) = ix2 p k := funext fun a => Fin.ext (by
    match a with
    | ⟨0, _⟩ => exact lhs_mlu_0 _ _
    | ⟨1, _⟩ => exact (lhs_mlu_1 _ _).trans hk)
  have er : dot_S256x32_S256x32_S256x256_1_1_0_0_n_n.rhsIdx (ix2 p q) ((contrEquiv1 dot_S256x32_S256x32_S256x256_1_1_0_0_n_n 32 rfl rfl).symm k) = ix2 q k := funext fun a => Fin.ext (by
    match a with
    | ⟨0, _⟩ => exact rhs_mlu_0 _ _
    | ⟨1, _⟩ => exact (rhs_mlu_1 _ _).trans hk)
  rw [el, er]

/-! ### The stored value at the entry (t, j) -/

theorem pay_apply (v0 : Vec Ideal S256x3072 .f32) (v1 : Vec Ideal S32x3072 .f32) (v6 : Vec Ideal S256x3072 .i32)
    (v7 : Vec Ideal S256x48 .f32) (v9 : Vec Ideal S48x3072 .bf16) (v17 : Vec Ideal S256x3072 .bf16) (v20 : Vec Ideal S256x32 .f32)
    (v23 : Vec Ideal S1x256 .f32) (t j : Fin 256) :
    Gen.k0_pay1 (F := Ideal) v0 v1 v6 v7 v9 v17 v20 v23 (ix2 t j)
      = (∑ k : Fin 3072, v17 (ix2 t k)
            * (((FloatOps.sitofp (F := Ideal) .f32 (v6 (ix2 j k)) : EReal) - Ideal.ofBits .f32 0x41000000#32)
                * ∑ g : Fin 48, v7 (ix2 j g) * v9 (ix2 g k)))
        + (∑ r : Fin 32, (∑ k : Fin 3072, v0 (ix2 t k) * v1 (ix2 r k)) * v20 (ix2 j r))
        + v23 (ix2 (0 : Fin 1) j) := by
  unfold Gen.k0_pay1
  -- the casts of a shape to itself are identities; every pointwise operation and every product is read at its entry
  simp only [shapeCast_self, addf_apply, mm_xw, mm_mlu, truncf_apply, mulf_apply, subf_apply, sitofp_apply, broadcast_apply,
    mm_wse, mm_xld, Ideal.ofBits_def]
  -- the bias row [1, 256] broadcast down the 256 rows reads its one row at column j
  rw [broadcastTo_apply v23 Gen.broadcasts_S1x256_S256x256 (ix2 t j) (ix2 (0 : Fin 1) j) (fun a => match a with
    | ⟨0, _⟩ => by show (0 : Nat) = if (1 : Nat) = 1 then 0 else _; rw [if_pos rfl]
    | ⟨1, _⟩ => by show j.val = if (256 : Nat) = 1 then 0 else j.val; rw [if_neg (by decide)])]

end Cert.KernelIdeal.Payload

end
-- ==== Proof.Expand.lean ====
import proofs.«146119_j52261162058321_1_alg».proof.Proof.Gen.KernelIdeal.Frame
import proofs.«146119_j52261162058321_1_alg».proof.Proof.Spec
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.StableHlo.Predicate

noncomputable section

namespace Cert.KernelIdeal.Expand

open Cert.KernelIdeal Idealize.ShloMosaic Idealize.ShloMosaic.ValueIdx Idealize.ShloMosaic.TcCoe Idealize.SL.Sem

/-! ## The matrix as one term

The host builds the 48 × 3072 matrix from two counters: the column counter 0, …, 3071 divided by 64 with
rounding towards minus infinity (the truncated quotient, less one where dividend and divisor differ in sign and the
remainder is not zero), laid down the rows; and the row counter 0, …, 47, laid along the columns. Entry (g, k) is
the one-bit word of the comparison ⌊k / 64⌋ = g, read as a number. -/

/-- The column positions 0, …, 3071 as 32-bit words. -/
def cols : IVec S3072 32 := iotaInDim S3072 32 0

/-- The word b at every column. -/
def lay (b : BitVec 32) : IVec S3072 32 := broadcastInDim S3072 ![] Gen.bcast_S_S3072 (constantI S_ 32 b)

/-- The truncated signed quotient of the column position by 64. -/
def quot : IVec S3072 32 := Host.divsi cols (lay 64#32)

/-- The column position divided by 64, rounded towards minus infinity. -/
def floorDiv : IVec S3072 32 :=
  select
    (andi (cmpi .ne (signi cols) (broadcastInDim S3072 ![] Gen.bcast_S_S3072 (signi (constantI S_ 32 64#32))))
      (cmpi .ne (Host.remsi cols (lay 64#32)) (lay 0#32)))
    (subi quot (lay 1#32)) quot

/-- The matrix of zeros and ones, over any float semantics. -/
def ematTerm {F : FTy → Type} [FloatOps F] : FVec F S48x3072 .bf16 :=
  uitofp .bf16 (cmpi .eq
    (broadcastInDim S48x3072 ![0, 1] Gen.bcast_S1x3072_S48x3072_0_1
      (broadcastInDim S1x3072 ![1] Gen.bcast_S3072_S1x3072_1 floorDiv))
    (broadcastInDim S48x3072 ![0, 1] Gen.bcast_S48x1_S48x3072_0_1
      (broadcastInDim S48x1 ![0] Gen.bcast_S48_S48x1_0 (iotaInDim S48 32 0))))

set_option maxRecDepth 8192 in
set_option maxHeartbeats 2000000 in
/-- The buffer the region finds is that term: of the host operations before the region only the two counters, the
    floor division and the comparison write into it. -/
theorem V_main_v24 (m : (ℓ : Loc nD τ sig) → Buf (Elt Ideal) ℓ) (c : Dev nD) :
    (Gen.V m c main_v24 : (⟨S48x3072, .bf16⟩ : BufTy).Contents (Elt Ideal)) = ematTerm (F := Ideal) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

/-! ## The floor division, word by word -/

/-- On a non-negative word w the floor division by 64 is the division of natural numbers: the signed quotient of two
    non-negative words is the unsigned one; and the correction never fires, since the sign of w differs from that of
    64 only at w = 0, where the remainder is zero. -/
theorem floorDiv_word (w : BitVec 32) (hw : w.toNat < 2 ^ 31) :
    Scalar.select
      (IntOp.andi
        (IntOp.cmpi .ne (if w = 0 then (0 : BitVec 32) else if w.msb then -1 else 1)
          (if (64#32 : BitVec 32) = 0 then (0 : BitVec 32) else if (64#32 : BitVec 32).msb then -1 else 1))
        (IntOp.cmpi .ne (IntOp.remsi .host w 64#32) 0#32))
      (IntOp.subi (IntOp.divsi .host w 64#32) 1#32) (IntOp.divsi .host w 64#32)
      = BitVec.ofNat 32 (w.toNat / 64) := by
  have hm : w.msb = false := BitVec.msb_eq_false_iff_two_mul_lt.mpr (by omega)
  have hcorner : ¬ IntOp.SDivCorner w 64#32 := by
    intro hc; rcases hc with hc | ⟨_, hc⟩ <;> exact absurd hc (by decide)
  have hq : IntOp.divsi .host w 64#32 = BitVec.ofNat 32 (w.toNat / 64) := by
    apply BitVec.eq_of_toNat_eq
    simp only [IntOp.divsi, if_neg hcorner, BitVec.sdiv_eq, hm, show (64#32 : BitVec 32).msb = false from by decide,
      BitVec.udiv_eq, BitVec.toNat_udiv, BitVec.toNat_ofNat, Nat.reducePow, Nat.reduceMod]
    omega
  have hs : (if (64#32 : BitVec 32) = 0 then (0 : BitVec 32) else if (64#32 : BitVec 32).msb then -1 else 1) = 1#32 := by decide
  have hand : IntOp.andi
        (IntOp.cmpi .ne (if w = 0 then (0 : BitVec 32) else if w.msb then -1 else 1)
          (if (64#32 : BitVec 32) = 0 then (0 : BitVec 32) else if (64#32 : BitVec 32).msb then -1 else 1))
        (IntOp.cmpi .ne (IntOp.remsi .host w 64#32) 0#32) = 0#1 := by
    rw [hs]
    by_cases h0 : w = 0
    · subst h0
      have hr : IntOp.cmpi .ne (IntOp.remsi .host (0 : BitVec 32) 64#32) 0#32 = 0#1 := by decide
      rw [hr]; unfold IntOp.andi; exact BitVec.and_zero
    · rw [if_neg h0, hm]
      have hc : IntOp.cmpi .ne (if false = true then (-1 : BitVec 32) else 1) 1#32 = 0#1 := by decide
      rw [hc]; unfold IntOp.andi; exact BitVec.zero_and
  rw [hand, select_zero, hq]

/-- The floor division at column k is the word of k / 64. -/
theorem floorDiv_apply (k : Fin 3072) : floorDiv (ix1 k) = BitVec.ofNat 32 (k.val / 64) := by
  have hk := k.isLt
  have hw : (BitVec.ofNat 32 k.val).toNat = k.val := by rw [BitVec.toNat_ofNat]; omega
  have h := floorDiv_word (BitVec.ofNat 32 k.val) (by rw [hw]; omega)
  rw [hw] at h
  exact h

/-! ## The entries -/

/-- A one-bit word read as a number: one for the set bit, zero for the clear one. -/
theorem uitofp_one : (FloatOps.uitofp (F := Ideal) .bf16 (1#1 : BitVec 1) : EReal) = 1 := by
  show (((1#1 : BitVec 1).toNat : ℝ) : EReal) = 1
  simp

theorem uitofp_zero : (FloatOps.uitofp (F := Ideal) .bf16 (0#1 : BitVec 1) : EReal) = 0 := by
  show (((0#1 : BitVec 1).toNat : ℝ) : EReal) = 0
  simp

/-- Entry (g, k) of the term: the comparison of the word of k / 64 with the word of g, as a number. -/
theorem ematTerm_apply (g : Fin 48) (k : Fin 3072) :
    ematTerm (F := Ideal) (ix2 g k) = if g = Cert.Spec.grp k then (1 : EReal) else 0 := by
  have hA : broadcastInDim S48x3072 ![0, 1] Gen.bcast_S1x3072_S48x3072_0_1
      (broadcastInDim S1x3072 ![1] Gen.bcast_S3072_S1x3072_1 floorDiv) (ix2 g k) = BitVec.ofNat 32 (k.val / 64) := by
    rw [broadcastInDim_apply _ Gen.bcast_S1x3072_S48x3072_0_1 _ (ix2 g k) (ix2 (0 : Fin 1) k)
        (fun a => match a with | ⟨0, _⟩ => rfl | ⟨1, _⟩ => rfl),
      broadcastInDim_apply _ Gen.bcast_S3072_S1x3072_1 _ (ix2 (0 : Fin 1) k) (ix1 k)
        (fun a => match a with | ⟨0, _⟩ => rfl),
      floorDiv_apply]
  have hB : broadcastInDim S48x3072 ![0, 1] Gen.bcast_S48x1_S48x3072_0_1
      (broadcastInDim S48x1 ![0] Gen.bcast_S48_S48x1_0 (iotaInDim S48 32 0)) (ix2 g k) = BitVec.ofNat 32 g.val := by
    rw [broadcastInDim_apply _ Gen.bcast_S48x1_S48x3072_0_1 _ (ix2 g k) (ix2 g (0 : Fin 1))
        (fun a => match a with | ⟨0, _⟩ => rfl | ⟨1, _⟩ => rfl),
      broadcastInDim_apply _ Gen.bcast_S48_S48x1_0 _ (ix2 g (0 : Fin 1)) (ix1 g)
        (fun a => match a with | ⟨0, _⟩ => rfl)]
    rfl
  show FloatOps.uitofp (F := Ideal) .bf16 (IntOp.cmpi .eq
      (broadcastInDim S48x3072 ![0, 1] Gen.bcast_S1x3072_S48x3072_0_1
        (broadcastInDim S1x3072 ![1] Gen.bcast_S3072_S1x3072_1 floorDiv) (ix2 g k))
      (broadcastInDim S48x3072 ![0, 1] Gen.bcast_S48x1_S48x3072_0_1
        (broadcastInDim S48x1 ![0] Gen.bcast_S48_S48x1_0 (iotaInDim S48 32 0)) (ix2 g k))) = _
  rw [hA, hB]
  have hg := g.isLt
  have hk := k.isLt
  by_cases h : g = Cert.Spec.grp k
  · have hv : g.val = k.val / 64 := congrArg Fin.val h
    rw [if_pos h, hv, StableHlo.Predicate.cmpi_eq_iff.mpr rfl, uitofp_one]
  · have hne : ¬ IntOp.cmpi .eq (BitVec.ofNat 32 (k.val / 64)) (BitVec.ofNat 32 g.val) = 1#1 := by
      intro he
      have he' := congrArg BitVec.toNat (StableHlo.Predicate.cmpi_eq_iff.mp he)
      rw [BitVec.toNat_ofNat, BitVec.toNat_ofNat] at he'
      apply h
      apply Fin.ext
      show g.val = k.val / 64
      omega
    rw [if_neg h, eq_zero_of_ne_one hne, uitofp_zero]

theorem emat_apply (m : (ℓ : Loc nD τ sig) → Buf (Elt Ideal) ℓ) (c : Dev nD) (g : Fin 48) (k : Fin 3072) :
    (Gen.V m c main_v24 : Vec Ideal S48x3072 .bf16) (ix2 g k) = if g = Cert.Spec.grp k then (1 : EReal) else 0 := by
  rw [V_main_v24]
  exact ematTerm_apply g k

end Cert.KernelIdeal.Expand

end
-- ==== Proof.Blocks.lean ====
/-
  From the grid points' blocks to the result array of the kernel program.

  The grid has twelve points; point `t` computes the 256 output channels `T·256 … T·256 + 255` of every token row
  (`T` the point's column block, which is `t`), from the whole activation, its quantization, the down-projection and
  the one-hot group matrix (staged whole at every point) and from rows `T·256 + j` of the weight codes, the group
  scales and the up-projection and entries `T·256 + j` of the bias. Reading the body's stored value at an entry
  (the payload lemma), each input block where the output's rectangle says, and the scale-expansion sum against the
  one-hot column as the group's scale, entry `(p, j)` of the point's block is entry `(p, T·256 + j)` of the common
  result `G`. The twelve column blocks tile the array, so after the run the array IS `G` of the argument arrays.
-/
import proofs.«146119_j52261162058321_1_alg».proof.Proof.Gen.KernelIdeal.Value
import proofs.«146119_j52261162058321_1_alg».proof.Proof.Spec
import proofs.«146119_j52261162058321_1_alg».proof.Proof.HostReads
import proofs.«146119_j52261162058321_1_alg».proof.Proof.Payload
import proofs.«146119_j52261162058321_1_alg».proof.Proof.Expand
import Idealize.ShloMosaic.Lib.ValueIdx
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

/-- One grid point's block of the result, from the point's input blocks: if the blocks hold the rows
    `256·T + j` of the weight codes, the scales, the up-projection and the bias, the whole activation, quantized
    activation and down-projection, and the one-hot matrix, then entry `(p, j)` of what the body stores is entry
    `(p, 256·T + j)` of the common result: the scale-expansion sum against the one-hot column picks the scale of
    column `k`'s group. -/
theorem point_eq (x0 : Vec Ideal S256x3072 .f32) (x1 : Vec Ideal S256x3072 .bf16) (x2 : Vec Ideal S32x3072 .f32)
    (x3 : Vec Ideal S48x3072 .bf16) (x4 : Vec Ideal S256x3072 .i32) (x5 : Vec Ideal S256x48 .f32) (x6 : Vec Ideal S256x32 .f32)
    (x7 : Vec Ideal S1x256 .f32)
    (xq x : Vec Ideal S256x3072 .f32) (qw : Vec Ideal S3072x3072 .i32) (ws : Vec Ideal S3072x48 .f32)
    (ld : Vec Ideal S32x3072 .f32) (lu : Vec Ideal S3072x32 .f32) (b : Vec Ideal S3072 .f32)
    (p j : Fin 256) (n : Fin 3072)
    (h0 : ∀ k, x0 (ix2 p k) = x (ix2 p k)) (h1 : ∀ k, x1 (ix2 p k) = xq (ix2 p k))
    (h2 : ∀ r k, x2 (ix2 r k) = ld (ix2 r k))
    (h3 : ∀ g k, x3 (ix2 g k) = if g = Cert.Spec.grp k then (1 : EReal) else 0)
    (h4 : ∀ k, x4 (ix2 j k) = qw (ix2 n k)) (h5 : ∀ g, x5 (ix2 j g) = ws (ix2 n g))
    (h6 : ∀ r, x6 (ix2 j r) = lu (ix2 n r)) (h7 : x7 (ix2 (0 : Fin 1) j) = b (ix1 n)) :
    Gen.k0_pay1 (F := Ideal) x0 x2 x4 x5 x3 x1 x6 x7 (ix2 p j) = Cert.Spec.G xq x qw ws ld lu b (ix2 p n) := by
  rw [Cert.KernelIdeal.Payload.pay_apply]
  unfold Cert.Spec.G Cert.Spec.deq Cert.Spec.mid
  rw [h7]
  congr 1
  congr 1
  · refine Finset.sum_congr rfl fun k _ => ?_
    rw [h1 k, h4 k, Cert.Spec.sum_mul_onehot (fun g => x5 (ix2 j g)) (fun g => x3 (ix2 g k)) (Cert.Spec.grp k) (fun g => h3 g k), h5]
  · refine Finset.sum_congr rfl fun r _ => ?_
    rw [h6 r]
    congr 1
    exact Finset.sum_congr rfl fun k _ => by rw [h0 k, h2 r k]

/-- The same at an index `y` of the block, the array index being `(y 0, n)`. -/
theorem point_eq' (x0 : Vec Ideal S256x3072 .f32) (x1 : Vec Ideal S256x3072 .bf16) (x2 : Vec Ideal S32x3072 .f32)
    (x3 : Vec Ideal S48x3072 .bf16) (x4 : Vec Ideal S256x3072 .i32) (x5 : Vec Ideal S256x48 .f32) (x6 : Vec Ideal S256x32 .f32)
    (x7 : Vec Ideal S1x256 .f32)
    (xq x : Vec Ideal S256x3072 .f32) (qw : Vec Ideal S3072x3072 .i32) (ws : Vec Ideal S3072x48 .f32)
    (ld : Vec Ideal S32x3072 .f32) (lu : Vec Ideal S3072x32 .f32) (b : Vec Ideal S3072 .f32)
    (y : S256x256.Idx) (n : Fin 3072)
    (h0 : ∀ k, x0 (ix2 (y 0) k) = x (ix2 (y 0) k)) (h1 : ∀ k, x1 (ix2 (y 0) k) = xq (ix2 (y 0) k))
    (h2 : ∀ r k, x2 (ix2 r k) = ld (ix2 r k))
    (h3 : ∀ g k, x3 (ix2 g k) = if g = Cert.Spec.grp k then (1 : EReal) else 0)
    (h4 : ∀ k, x4 (ix2 (y 1) k) = qw (ix2 n k)) (h5 : ∀ g, x5 (ix2 (y 1) g) = ws (ix2 n g))
    (h6 : ∀ r, x6 (ix2 (y 1) r) = lu (ix2 n r)) (h7 : x7 (ix2 (0 : Fin 1) (y 1)) = b (ix1 n)) :
    Gen.k0_pay1 (F := Ideal) x0 x2 x4 x5 x3 x1 x6 x7 y = Cert.Spec.G xq x qw ws ld lu b (ix2 (y 0) n) :=
  (congrArg (Gen.k0_pay1 (F := Ideal) x0 x2 x4 x5 x3 x1 x6 x7) (eq_ix2 y)).trans
    (point_eq x0 x1 x2 x3 x4 x5 x6 x7 xq x qw ws ld lu b (y 0) (y 1) n h0 h1 h2 h3 h4 h5 h6 h7)

end Cert.KernelIdeal.Blocks

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array of the kernel program, as the common function of the argument arrays. -/
abbrev Gk (c : Dev nD) : Vec Ideal S256x3072 .f32 :=
  Cert.Spec.G (Cert.ReferenceIdeal.Read.val_main_v22 (F := Ideal) (m ((c : Thread nD τ).loc main_arg0)))
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The printed index maps, decided over the twelve grid points: the activation, its quantization, the
    down-projection and the one-hot matrix are staged whole at every point; the weight codes, the scales and the
    up-projection move down their rows, and the bias along its row, with the output's column block. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = win0_8.index t (1 : Fin 2) ∧ win0_4.index t (1 : Fin 2) = 0
    ∧ win0_5.index t (0 : Fin 2) = win0_8.index t (1 : Fin 2) ∧ win0_5.index t (1 : Fin 2) = 0
    ∧ win0_6.index t (0 : Fin 2) = win0_8.index t (1 : Fin 2) ∧ win0_6.index t (1 : Fin 2) = 0
    ∧ win0_7.index t (0 : Fin 2) = 0 ∧ win0_7.index t (1 : Fin 2) = win0_8.index t (1 : Fin 2)
    ∧ win0_8.index t (0 : Fin 2) = 0 ∧ win0_8.index t (1 : Fin 2) ≤ 11 :=
  (by decide +kernel : ∀ t : Fin grid0.N, _)

/-- Every column block of the result is some point's. -/
theorem idx_onto : ∀ q : Fin 12, ∃ t : Fin cfg0.N, win0_8.index t = ![0, q.val] :=
  (by decide +kernel : ∀ q : Fin 12, ∃ t : Fin grid0.N, win0_8.index t = ![0, q.val])

/-! ## Each input window's block at a point, read off its array: a block's coordinate is the block index times
    the block's extent plus the coordinate inside the block. -/

/-- The activation is staged whole. -/
theorem blk0 (c : Dev nD) (t : Fin cfg0.N) (p : Fin 256) (k : Fin 3072) :
    iblk m c 0 t (ix2 p k) = m ((c : Thread nD τ).loc main_arg0) (ix2 p k) := by
  obtain ⟨e00, e01, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 256 + 1 * p.val = p.val; omega
  | ⟨1, _⟩ => show win0_0.index t (1 : Fin 2) * 3072 + 1 * k.val = k.val; omega

/-- The quantized activation is staged whole: the reference's quantization of the activation. -/
theorem blk1 (c : Dev nD) (t : Fin cfg0.N) (p : Fin 256) (k : Fin 3072) :
    iblk m c 1 t (ix2 p k)
      = Cert.ReferenceIdeal.Read.val_main_v22 (F := Ideal) (m ((c : Thread nD τ).loc main_arg0)) (ix2 p k) := by
  obtain ⟨-, -, e10, e11, -⟩ := idx_facts t
  show V m c main_v15 (((cfg0.win 1).blk t).view.emb (ix2 p k)) = _
  rw [Cert.KernelIdeal.HostReads.V_main_v15]
  refine congrArg (Cert.ReferenceIdeal.Read.val_main_v22 (F := Ideal) (m ((c : Thread nD τ).loc main_arg0))) (funext fun a => Fin.ext ?_)
  match a with
  | ⟨0, _⟩ => show win0_1.index t (0 : Fin 2) * 256 + 1 * p.val = p.val; omega
  | ⟨1, _⟩ => show win0_1.index t (1 : Fin 2) * 3072 + 1 * k.val = k.val; omega

/-- The down-projection is staged whole. -/
theorem blk2 (c : Dev nD) (t : Fin cfg0.N) (r : Fin 32) (k : Fin 3072) :
    iblk m c 2 t (ix2 r k) = m ((c : Thread nD τ).loc main_arg3) (ix2 r k) := by
  obtain ⟨-, -, -, -, e20, e21, -⟩ := idx_facts t
  show V m c main_arg3 (((cfg0.win 2).blk t).view.emb (ix2 r k)) = _
  rw [V_main_arg3]
  refine congrArg (m ((c : Thread nD τ).loc main_arg3)) (funext fun a => Fin.ext ?_)
  match a with
  | ⟨0, _⟩ => show win0_2.index t (0 : Fin 2) * 32 + 1 * r.val = r.val; omega
  | ⟨1, _⟩ => show win0_2.index t (1 : Fin 2) * 3072 + 1 * k.val = k.val; omega

/-- The one-hot matrix is staged whole. -/
theorem blk3 (c : Dev nD) (t : Fin cfg0.N) (g : Fin 48) (k : Fin 3072) :
    iblk m c 3 t (ix2 g k) = if g = Cert.Spec.grp k then (1 : EReal) else 0 := by
  obtain ⟨-, -, -, -, -, -, e30, e31, -⟩ := idx_facts t
  have he : ((cfg0.win 3).blk t).view.emb (ix2 g k) = ix2 g k := funext fun a => Fin.ext (by
    match a with
    | ⟨0, _⟩ => show win0_3.index t (0 : Fin 2) * 48 + 1 * g.val = g.val; omega
    | ⟨1, _⟩ => show win0_3.index t (1 : Fin 2) * 3072 + 1 * k.val = k.val; omega)
  show V m c main_v24 (((cfg0.win 3).blk t).view.emb (ix2 g k)) = _
  rw [he]
  exact Cert.KernelIdeal.Expand.emat_apply m c g k

/-- Row `j` of the weight codes' block at a point is row `T·256 + j` of the codes, `T` the point's column block. -/
theorem blk4 (c : Dev nD) (t : Fin cfg0.N) (j : Fin 256) (k : Fin 3072) (n : Fin 3072)
    (hn : n.val = win0_8.index t (1 : Fin 2) * 256 + j.val) :
    iblk m c 4 t (ix2 j k) = m ((c : Thread nD τ).loc main_arg1) (ix2 n k) := by
  obtain ⟨-, -, -, -, -, -, -, -, e40, e41, -⟩ := idx_facts t
  show V m c main_arg1 (((cfg0.win 4).blk t).view.emb (ix2 j k)) = _
  rw [V_main_arg1]
  refine congrArg (m ((c : Thread nD τ).loc main_arg1)) (funext fun a => Fin.ext ?_)
  match a with
  | ⟨0, _⟩ => show win0_4.index t (0 : Fin 2) * 256 + 1 * j.val = n.val; omega
  | ⟨1, _⟩ => show win0_4.index t (1 : Fin 2) * 3072 + 1 * k.val = k.val; omega

/-- The same for the scales. -/
theorem blk5 (c : Dev nD) (t : Fin cfg0.N) (j : Fin 256) (g : Fin 48) (n : Fin 3072)
    (hn : n.val = win0_8.index t (1 : Fin 2) * 256 + j.val) :
    iblk m c 5 t (ix2 j g) = m ((c : Thread nD τ).loc main_arg2) (ix2 n g) := by
  obtain ⟨-, -, -, -, -, -, -, -, -, -, e50, e51, -⟩ := idx_facts t
  show V m c main_arg2 (((cfg0.win 5).blk t).view.emb (ix2 j g)) = _
  rw [V_main_arg2]
  refine congrArg (m ((c : Thread nD τ).loc main_arg2)) (funext fun a => Fin.ext ?_)
  match a with
  | ⟨0, _⟩ => show win0_5.index t (0 : Fin 2) * 256 + 1 * j.val = n.val; omega
  | ⟨1, _⟩ => show win0_5.index t (1 : Fin 2) * 48 + 1 * g.val = g.val; omega

/-- The same for the up-projection. -/
theorem blk6 (c : Dev nD) (t : Fin cfg0.N) (j : Fin 256) (r : Fin 32) (n : Fin 3072)
    (hn : n.val = win0_8.index t (1 : Fin 2) * 256 + j.val) :
    iblk m c 6 t (ix2 j r) = m ((c : Thread nD τ).loc main_arg4) (ix2 n r) := by
  obtain ⟨-, -, -, -, -, -, -, -, -, -, -, -, e60, e61, -⟩ := idx_facts t
  show V m c main_arg4 (((cfg0.win 6).blk t).view.emb (ix2 j r)) = _
  rw [V_main_arg4]
  refine congrArg (m ((c : Thread nD τ).loc main_arg4)) (funext fun a => Fin.ext ?_)
  match a with
  | ⟨0, _⟩ => show win0_6.index t (0 : Fin 2) * 256 + 1 * j.val = n.val; omega
  | ⟨1, _⟩ => show win0_6.index t (1 : Fin 2) * 32 + 1 * r.val = r.val; omega

/-- Entry `j` of the bias row's block at a point is entry `T·256 + j` of the bias. -/
theorem blk7 (c : Dev nD) (t : Fin cfg0.N) (j : Fin 256) (n : Fin 3072)
    (hn : n.val = win0_8.index t (1 : Fin 2) * 256 + j.val) :
    iblk m c 7 t (ix2 (0 : Fin 1) j) = m ((c : Thread nD τ).loc main_arg5) (ix1 n) := by
  obtain ⟨-, -, -, -, -, -, -, -, -, -, -, -, -, -, e70, e71, -⟩ := idx_facts t
  show V m c main_v25 (((cfg0.win 7).blk t).view.emb (ix2 (0 : Fin 1) j)) = _
  rw [Cert.KernelIdeal.HostReads.V_main_v25]
  refine shapeCast_apply _ shapeCasts_S3072_S1x3072 _ _ ?_
  rewrite [Shape.rowMajor_val_one, Shape.rowMajor_val_two]
  show n.val = (win0_7.index t (0 : Fin 2) * 1 + 1 * 0) * 3072 + (win0_7.index t (1 : Fin 2) * 256 + 1 * j.val)
  omega

/-- WHAT POINT `t` WRITES BACK is block `t` of the common result. -/
theorem flushed_eq (c : Dev nD) (t : Fin cfg0.N) :
    (dats m 0 c).flushed 8 t = ((cfg0.win 8).blk t).view.read (Elt Ideal) (Gk m c) := by
  rw [Cert.KernelIdeal.Value.flushed8]
  unfold out0_8
  rw [View.canon_unit_zero hz]
  simp only [View.ld_unit_zero (S := S256x3072) hz, View.ld_unit_zero (S := S32x3072) hz, View.ld_unit_zero (S := S256x48) hz,
    View.ld_unit_zero (S := S48x3072) hz, View.ld_unit_zero (S := S256x32) hz, View.ld_unit_zero (S := S1x256) hz]
  obtain ⟨-, -, -, -, -, -, -, -, -, -, -, -, -, -, -, -, e80, e81⟩ := idx_facts t
  funext y
  have hy0 : (y 0).val < 256 := (y 0).isLt
  have hy1 : (y 1).val < 256 := (y 1).isLt
  have hn : win0_8.index t (1 : Fin 2) * 256 + (y 1).val < 3072 := by omega
  show Gen.k0_pay1 (F := Ideal) (iblk m c 0 t) (iblk m c 2 t) (iblk m c 4 t) (iblk m c 5 t) (iblk m c 3 t) (iblk m c 1 t)
      (iblk m c 6 t) (iblk m c 7 t) y = Gk m c (((cfg0.win 8).blk t).view.emb y)
  refine (point_eq' (iblk m c 0 t) (iblk m c 1 t) (iblk m c 2 t) (iblk m c 3 t) (iblk m c 4 t) (iblk m c 5 t) (iblk m c 6 t)
    (iblk m c 7 t) (Cert.ReferenceIdeal.Read.val_main_v22 (F := Ideal) (m ((c : Thread nD τ).loc main_arg0)))
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    y ⟨win0_8.index t (1 : Fin 2) * 256 + (y 1).val, hn⟩
    (fun k => blk0 m c t (y 0) k) (fun k => blk1 m c t (y 0) k) (fun r k => blk2 m c t r k) (fun g k => blk3 m c t g k)
    (fun k => blk4 m c t (y 1) k _ rfl) (fun g => blk5 m c t (y 1) g _ rfl) (fun r => blk6 m c t (y 1) r _ rfl)
    (blk7 m c t (y 1) _ rfl)).trans ?_
  refine congrArg (Gk m c) (funext fun a => Fin.ext ?_)
  match a with
  | ⟨0, _⟩ => show (y 0).val = win0_8.index t (0 : Fin 2) * 256 + 1 * (y 0).val; omega
  | ⟨1, _⟩ => show win0_8.index t (1 : Fin 2) * 256 + (y 1).val = win0_8.index t (1 : Fin 2) * 256 + 1 * (y 1).val; omega

/-- An index of the array is in point `t`'s block iff each coordinate is in the block's range on its axis. -/
theorem mem_blk (t : Fin cfg0.N) (i : S256x3072.Idx) :
    i ∈ ((cfg0.win 8).blk t).view.set ↔ ∀ a : Fin 2, win0_8.index t a * S256x256.size a ≤ (i a).val ∧ (i a).val < win0_8.index t a * S256x256.size a + S256x256.size a := by
  show i ∈ ((View.whole main_v26).slice (win0_8.rect t)).set ↔ _
  rw [View.set_slice_whole, Rect.mem_set_unit]
  exact Iff.rfl

/-- The twelve column blocks tile the array: column `n` lies in the block of the point whose column block is `n / 256`. -/
theorem cover (i : S256x3072.Idx) :
    ∃ t : Fin cfg0.N, (cfg0.win 8).flush t = true ∧ i ∈ ((cfg0.win 8).blk t).view.set := by
  have hi0 : (i 0).val < 256 := (i 0).isLt
  have hi1 : (i 1).val < 3072 := (i 1).isLt
  obtain ⟨t, ht⟩ := idx_onto ⟨(i 1).val / 256, by omega⟩
  have q0 : win0_8.index t (0 : Fin 2) = 0 := congrFun ht 0
  have q1 : win0_8.index t (1 : Fin 2) = (i 1).val / 256 := congrFun ht 1
  refine ⟨t, flush0_8 t, ?_⟩
  rw [mem_blk]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 256 ≤ (i 1).val ∧ (i 1).val < win0_8.index t (1 : Fin 2) * 256 + 256; omega

/-- THE ARRAY after the run is the common result of the argument arrays. -/
theorem final (c : Dev nD) : (dats m 0 c).arrAt 8 cfg0.N = Gk m c :=
  (dats m 0 c).arrAt_eq_of_cover 8 (Gk m c) (fun t _ => flushed_eq m c t) cover

/-- The kernel program's run with its result array named: the common result; the arguments unchanged. -/
theorem run : θ_run defs (onTc (τ := τ) (main (F := Ideal))) ⟨m, fun _ => 0, ρ⟩ fun r => ∀ c : Dev nD,
      r.2.mem ((c : Thread nD τ).loc main_v26) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Blocks

end
-- ==== Proof.RefRead.lean ====
/-
  The reference's result array, read stage by stage, is the common result `G`.

  The reference dequantizes the weight by reshaping the codes less 8 to [3072, 48, 64], multiplying by the scales
  broadcast over the last axis, and reshaping back: entry (n, k) is (code[n, k] − 8) · ws[n, k / 64], because the
  row-major position n · 3072 + k splits as ((n · 48 + k / 64) · 64 + k mod 64) with 3072 = 48 · 64. Its three host
  products against transposed operands are the sums over the shared coordinate, and the bias is broadcast over the
  rows. The quantized activation (stage `val_main_v22`) is kept whole: it is `G`'s first argument.
-/
import proofs.«146119_j52261162058321_1_alg».proof.Proof.Gen.ReferenceIdeal.Read
import proofs.«146119_j52261162058321_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx Idealize.ShloMosaic.TcCoe Idealize.SL.Sem

/-! ## Index equations

Each stage of the reference reads its operand at an index computed from the result's index. Composed along the
chain from the result down to an argument array, these index maps collapse to a plain pair of coordinates. -/

/-- The left operand of the main product is read at row `t`, column `k`. -/
theorem lidx24_eq (t : Fin 256) (n k : Fin 3072) :
    Read.lidx_main_v24 (ix2 t n) k = ix2 t k := by
  funext a; match a with | ⟨0, _⟩ => rfl | ⟨1, _⟩ => rfl

/-- The transposed weight at `(k, n)` is the weight at `(n, k)`. -/
theorem ridx24_eq (t : Fin 256) (n k : Fin 3072) :
    Read.idx_main_v23 (Read.ridx_main_v24 (ix2 t n) k) = ix2 n k := by
  funext a; match a with | ⟨0, _⟩ => rfl | ⟨1, _⟩ => rfl

/-- Reshaping `[3072, 3072] → [3072, 48, 64] → [3072, 3072]` gives back the same entry: with `p = n · 3072 + k`,
    `((p / 3072) · 48 + (p / 64) % 48) · 64 + p % 64 = p` because `3072 = 48 · 64`. -/
theorem idx_code_eq (n k : Fin 3072) :
    Read.idx_main_v3 (Read.idx_main_v7 (ix2 n k)) = ix2 n k := by
  have hn := n.isLt
  have hk := k.isLt
  funext a
  apply Fin.ext
  match a with
  | ⟨0, _⟩ =>
    show (((n.val * 3072 + k.val) / 3072 * 48 + (n.val * 3072 + k.val) / 64 % 48) * 64
      + (n.val * 3072 + k.val) % 64) / 3072 = n.val
    omega
  | ⟨1, _⟩ =>
    show (((n.val * 3072 + k.val) / 3072 * 48 + (n.val * 3072 + k.val) / 64 % 48) * 64
      + (n.val * 3072 + k.val) % 64) % 3072 = k.val
    omega

/-- The scale that meets entry `(n, k)` is that of row `n` and of the group `k / 64`:
    `(n · 3072 + k) / 64 % 48 = k / 64` for `k < 3072 = 48 · 64`. -/
theorem idx_scale_eq (n k : Fin 3072) :
    Read.idx_main_v4 (Read.idx_main_v5 (Read.idx_main_v7 (ix2 n k))) = ix2 n (Cert.Spec.grp k) := by
  have hn := n.isLt
  have hk := k.isLt
  funext a
  apply Fin.ext
  match a with
  | ⟨0, _⟩ =>
    show (n.val * 3072 + k.val) / 3072 = n.val
    omega
  | ⟨1, _⟩ =>
    show (n.val * 3072 + k.val) / 64 % 48 = k.val / 64
    omega

theorem lidx28_eq (t : Fin 256) (n : Fin 3072) (r : Fin 32) :
    Read.lidx_main_v28 (ix2 t n) r = ix2 t r := by
  funext a; match a with | ⟨0, _⟩ => rfl | ⟨1, _⟩ => rfl

theorem ridx28_eq (t : Fin 256) (n : Fin 3072) (r : Fin 32) :
    Read.idx_main_v27 (Read.ridx_main_v28 (ix2 t n) r) = ix2 n r := by
  funext a; match a with | ⟨0, _⟩ => rfl | ⟨1, _⟩ => rfl

theorem lidx26_eq (t : Fin 256) (r : Fin 32) (k : Fin 3072) :
    Read.lidx_main_v26 (ix2 t r) k = ix2 t k := by
  funext a; match a with | ⟨0, _⟩ => rfl | ⟨1, _⟩ => rfl

theorem ridx26_eq (t : Fin 256) (r : Fin 32) (k : Fin 3072) :
    Read.idx_main_v25 (Read.ridx_main_v26 (ix2 t r) k) = ix2 r k := by
  funext a; match a with | ⟨0, _⟩ => rfl | ⟨1, _⟩ => rfl

/-- The bias, broadcast over the rows, is read at the column alone. -/
theorem idx_bias_eq (t : Fin 256) (n : Fin 3072) :
    Read.idx_main_v30 (Read.idx_main_v31 (ix2 t n)) = ix1 n := by
  funext a; match a with | ⟨0, _⟩ => rfl

/-! ## The three summands -/

/-- The dequantized weight of the reference at `(n, k)` is `(code[n, k] − 8) · scale[n, k / 64]`. -/
theorem weight_eq (x1 : Vec Ideal S3072x3072 .i32) (x2 : Vec Ideal S3072x48 .f32) (n k : Fin 3072) :
    Read.val_main_v7 (F := Ideal) x1 x2 (ix2 n k) = Cert.Spec.deq x1 x2 n k := by
  rw [Read.val_main_v7_apply, Read.val_main_v6_apply, Read.val_main_v3_apply, Read.val_main_v2_apply,
    Read.val_main_v0_apply, Read.val_main_v1_apply, Read.val_main_cst_apply, Read.val_main_v5_apply,
    Read.val_main_v4_apply, idx_code_eq, idx_scale_eq]
  rfl

/-- The main product: the quantized activation against the dequantized weight. -/
theorem main_eq (x0 : Vec Ideal S256x3072 .f32) (x1 : Vec Ideal S3072x3072 .i32) (x2 : Vec Ideal S3072x48 .f32)
    (t : Fin 256) (n : Fin 3072) :
    Read.val_main_v24 (F := Ideal) x0 x1 x2 (ix2 t n)
      = ∑ k : Fin 3072, Read.val_main_v22 (F := Ideal) x0 (ix2 t k) * Cert.Spec.deq x1 x2 n k := by
  rw [Read.val_main_v24_apply]
  refine Finset.sum_congr rfl fun k _ => ?_
  rw [Read.val_main_v23_apply, lidx24_eq, ridx24_eq, weight_eq]

/-- The low-rank branch's middle value. -/
theorem mid_eq (x0 : Vec Ideal S256x3072 .f32) (x3 : Vec Ideal S32x3072 .f32) (t : Fin 256) (r : Fin 32) :
    Read.val_main_v26 (F := Ideal) x0 x3 (ix2 t r) = Cert.Spec.mid x0 x3 t r := by
  rw [Read.val_main_v26_apply]
  unfold Cert.Spec.mid
  refine Finset.sum_congr rfl fun k _ => ?_
  rw [Read.val_main_v25_apply, lidx26_eq, ridx26_eq]

/-- The low-rank branch. -/
theorem lowrank_eq (x0 : Vec Ideal S256x3072 .f32) (x3 : Vec Ideal S32x3072 .f32) (x4 : Vec Ideal S3072x32 .f32)
    (t : Fin 256) (n : Fin 3072) :
    Read.val_main_v28 (F := Ideal) x0 x3 x4 (ix2 t n)
      = ∑ r : Fin 32, Cert.Spec.mid x0 x3 t r * x4 (ix2 n r) := by
  rw [Read.val_main_v28_apply]
  refine Finset.sum_congr rfl fun r _ => ?_
  rw [Read.val_main_v27_apply, lidx28_eq, ridx28_eq, mid_eq]

/-- The bias term. -/
theorem bias_eq (x5 : Vec Ideal S3072 .f32) (t : Fin 256) (n : Fin 3072) :
    Read.val_main_v31 (F := Ideal) x5 (ix2 t n) = x5 (ix1 n) := by
  rw [Read.val_main_v31_apply, Read.val_main_v30_apply, idx_bias_eq]

/-! ## The reference is the common specification -/

theorem ref_eq_G (x0 : Vec Ideal S256x3072 .f32) (x1 : Vec Ideal S3072x3072 .i32) (x2 : Vec Ideal S3072x48 .f32)
    (x3 : Vec Ideal S32x3072 .f32) (x4 : Vec Ideal S3072x32 .f32) (x5 : Vec Ideal S3072 .f32) :
    Read.val_main_v32 (F := Ideal) x0 x1 x2 x3 x4 x5
      = Cert.Spec.G (Read.val_main_v22 (F := Ideal) x0) x0 x1 x2 x3 x4 x5 := by
  funext i
  obtain ⟨t, n, rfl⟩ : ∃ (t : Fin 256) (n : Fin 3072), i = ix2 t n := ⟨i 0, i 1, eq_ix2 i⟩
  rw [Read.val_main_v32_apply, Read.val_main_v29_apply, main_eq, lowrank_eq, bias_eq]
  rfl

end Cert.ReferenceIdeal.RefValue

end
-- ==== Proof.lean ====
/-
  The certificate of the W4A4 linear layer with a low-rank branch: the Pallas kernel program (`Kernel`, read at
  the word level; `KernelIdeal`, its idealization: the same text read on the extended reals) against the jnp
  reference (`ReferenceIdeal`).

  On the extended reals both programs compute, for token row `t` and output channel `n`,

      out[t, n] = (∑ₖ xq[t, k] · (code[n, k] − 8) · ws[n, k / 64]) + (∑ᵣ (∑ₖ x[t, k] · ld[r, k]) · lu[n, r]) + bias[n]

  (`Cert.Spec.G`), `xq` the fake-quantized activation, computed on the host by the same operations in both
  programs. The kernel tiles the output channels into twelve blocks of 256, forms each block's dequantized weight
  from the codes and from the group scales expanded by a product with a one-hot 48 × 3072 matrix, and takes its
  four products on the matrix unit into zero accumulators; the reference reshapes to groups of 64, broadcasts the
  scales and takes three host products. A change of float format is the identity here, a product into a zero
  accumulator is the plain sum, and a sum against a one-hot column picks its one term (`a · 0 = 0` for every
  extended real `a`), so no law is used that needs the inputs finite and the precondition is never opened.

  The three frames are the generated ones (the reference's is its generated run with the result dropped); the
  idealization rewrote nothing, so `preserves` is trivial; `algebraic` sets the kernel program's run, its result
  array named block by block and then whole (`Blocks.run`), beside the reference's generated run read stage by
  stage (`RefValue.ref_eq_G`).
-/
import proofs.«146119_j52261162058321_1_alg».proof.Defs
import proofs.«146119_j52261162058321_1_alg».proof.Proof.Gen.Kernel
import proofs.«146119_j52261162058321_1_alg».proof.Proof.Gen.Kernel.Skeleton
import proofs.«146119_j52261162058321_1_alg».proof.Proof.Gen.Kernel.Launch
import proofs.«146119_j52261162058321_1_alg».proof.Proof.Gen.Kernel.Points
import proofs.«146119_j52261162058321_1_alg».proof.Proof.Gen.Kernel.Frame
import proofs.«146119_j52261162058321_1_alg».proof.Proof.Gen.KernelIdeal
import proofs.«146119_j52261162058321_1_alg».proof.Proof.Gen.KernelIdeal.Skeleton
import proofs.«146119_j52261162058321_1_alg».proof.Proof.Gen.KernelIdeal.Launch
import proofs.«146119_j52261162058321_1_alg».proof.Proof.Gen.KernelIdeal.Points
import proofs.«146119_j52261162058321_1_alg».proof.Proof.Gen.KernelIdeal.Frame
import proofs.«146119_j52261162058321_1_alg».proof.Proof.Gen.ReferenceIdeal
import proofs.«146119_j52261162058321_1_alg».proof.Proof.Gen.Pre_finite_inputs
import proofs.«146119_j52261162058321_1_alg».proof.Proof.Gen.KernelIdeal.Value
import proofs.«146119_j52261162058321_1_alg».proof.Proof.Gen.ReferenceIdeal.Run
import proofs.«146119_j52261162058321_1_alg».proof.Proof.Gen.ReferenceIdeal.Read
import proofs.«146119_j52261162058321_1_alg».proof.Proof.Blocks
import proofs.«146119_j52261162058321_1_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments the kernel program's result array ends at `G` of its arguments
    (`Blocks.run`) and the reference's at its last stage (the generated run), which is `G` of the reference's
    arguments (`ref_eq_G`): the same array once the agreement is rewritten. -/
theorem algebraic : Cert.algebraic_KernelIdeal_ReferenceIdeal := by
  intro m ρ m' ρ' _ hagree
  refine ⟨fun c => Cert.KernelIdeal.Blocks.Gk m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v32_eq (F := Ideal) _ _ _ _ _ _).trans ?_
  rw [Cert.ReferenceIdeal.RefValue.ref_eq_G, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
